-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384x1 : Shape := ⟨2, ![16384, 1]⟩
abbrev S1024x2048 : Shape := ⟨2, ![1024, 2048]⟩
abbrev S2048 : Shape := ⟨1, ![2048]⟩
abbrev S2048x1024 : Shape := ⟨2, ![2048, 1024]⟩
abbrev S1024 : Shape := ⟨1, ![1024]⟩
abbrev S2048x1 : Shape := ⟨2, ![2048, 1]⟩
abbrev S1 : Shape := ⟨1, ![1]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x1 : S_.BroadcastsInDim S16384x1 (![] : Fin 0 → Fin S16384x1.rank)
  reducesTo_S16384x1_S_d0_1 : S16384x1.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S2048x1 : S_.BroadcastsInDim S2048x1 (![] : Fin 0 → Fin S2048x1.rank)
  reducesTo_S2048x1_S_d0_1 : S2048x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S2048x1 .f32) (main_arg12 : FVec F S1 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S2048x1 .f32 := Host.absf main_arg11
  let main_cst_20 : FVec F S_ .f32 := constant S_ .f32 0x7F800000#32
  let main_v55 : FVec F S2048x1 .f32 := broadcastInDim S2048x1 ![] bcast_S_S2048x1 main_cst_20
  let main_v56 : IVec S2048x1 1 := cmpf .olt main_v54 main_v55
  let main_c_21 : IVec S_ 1 := constantI S_ 1 1#1
  let main_v57 : IVec S_ 1 := (fun x v => Host.reduce IntOp.andi x v reducesTo_S2048x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S2048x1024 .f32) (main_arg8 : FVec F S1024 .f32) (main_arg9 : FVec F S2048x1024 .f32) (main_arg10 : FVec F S1024 .f32) (main_arg11 : FVec F S2048x1 .f32) (main_arg12 : FVec F S1 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S2048 .f32) (main_arg5 : FVec F S1024x2048 .f32) (main_arg6 : FVec F S2048 .f32) (main_arg7 : FVec F S2048x1024 .f32) (main_arg8 : FVec F S1024 .f32) (main_arg9 : FVec F S2048x1024 .f32) (main_arg10 : FVec F S1024 .f32) (main_arg11 : FVec F S2048x1 .f32) (main_arg12 : FVec F S1 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16384x1024 .f32) (main_arg1 : FVec F S16384x1024 .f32) (main_arg2 : FVec F S16384x1 .f32) (main_arg3 : FVec F S1024x2048 .f32) (main_arg4 : FVec F S2048 .f32) (main_arg5 : FVec F S1024x2048 .f32) (main_arg6 : FVec F S2048 .f32) (main_arg7 : FVec F S2048x1024 .f32) (main_arg8 : FVec F S1024 .f32) (main_arg9 : FVec F S2048x1024 .f32) (main_arg10 : FVec F S1024 .f32) (main_arg11 : FVec F S2048x1 .f32) (main_arg12 : FVec F S1 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1 .f32 := Host.absf main_arg2
  let main_cst_2 : FVec F S_ .f32 := constant S_ .f32 0x7F800000#32
  let main_v10 : FVec F S16384x1 .f32 := broadcastInDim S16384x1 ![] bcast_S_S16384x1 main_cst_2
  let main_v11 : IVec S16384x1 1 := cmpf .olt main_v9 main_v10
  let main_c_3 : IVec S_ 1 := constantI S_ 1 1#1
  let main_v12 : IVec S_ 1 := (fun x v => Host.reduce IntOp.andi x v reducesTo_S16384x1_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_arg11 main_arg12 main_v13 main_v16
-- ==== Kernel.lean ====
abbrev S16384x1024 : Shape := ⟨2, ![16384, 1024]⟩
abbrev S16384x1 : Shape := ⟨2, ![16384, 1]⟩
abbrev S1024x2048 : Shape := ⟨2, ![1024, 2048]⟩
abbrev S2048 : Shape := ⟨1, ![2048]⟩
abbrev S2048x1024 : Shape := ⟨2, ![2048, 1024]⟩
abbrev S1024 : Shape := ⟨1, ![1024]⟩
abbrev S2048x1 : Shape := ⟨2, ![2048, 1]⟩
abbrev S1 : Shape := ⟨1, ![1]⟩
abbrev S1x2048 : Shape := ⟨2, ![1, 2048]⟩
abbrev S1x1024 : Shape := ⟨2, ![1, 1024]⟩
abbrev S1x1 : Shape := ⟨2, ![1, 1]⟩
abbrev S16x128 : Shape := ⟨2, ![16, 128]⟩
abbrev S256x1024 : Shape := ⟨2, ![256, 1024]⟩
abbrev S256x1 : Shape := ⟨2, ![256, 1]⟩
abbrev S8x128 : Shape := ⟨2, ![8, 128]⟩
abbrev S256x2048 : Shape := ⟨2, ![256, 2048]⟩
abbrev S256 : Shape := ⟨1, ![256]⟩
abbrev S_ : Shape := ⟨0, ![]⟩

abbrev nBuf : Space → Nat
  | .hbm => 29
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1, .f32⟩
  | .hbm, ⟨3, _⟩ => ⟨S1024x2048, .f32⟩
  | .hbm, ⟨4, _⟩ => ⟨S2048, .f32⟩
  | .hbm, ⟨5, _⟩ => ⟨S1024x2048, .f32⟩
  | .hbm, ⟨6, _⟩ => ⟨S2048, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S2048x1, .f32⟩
  | .hbm, ⟨12, _⟩ => ⟨S1, .f32⟩
  | .hbm, ⟨13, _⟩ => ⟨S1024x2048, .bf16⟩
  | .hbm, ⟨14, _⟩ => ⟨S1024x2048, .bf16⟩
  | .hbm, ⟨15, _⟩ => ⟨S2048x1024, .bf16⟩
  | .hbm, ⟨16, _⟩ => ⟨S2048x1024, .bf16⟩
  | .hbm, ⟨17, _⟩ => ⟨S2048x1, .bf16⟩
  | .hbm, ⟨18, _⟩ => ⟨S1x2048, .f32⟩
  | .hbm, ⟨19, _⟩ => ⟨S1x2048, .f32⟩
  | .hbm, ⟨20, _⟩ => ⟨S1x1024, .f32⟩
  | .hbm, ⟨21, _⟩ => ⟨S1x1024, .f32⟩
  | .hbm, ⟨22, _⟩ => ⟨S1x1, .f32⟩
  | .hbm, ⟨23, _⟩ => ⟨S16x128, .f32⟩
  | .hbm, ⟨24, _⟩ => ⟨S1x1, .f32⟩
  | .hbm, ⟨25, _⟩ => ⟨S_, .f32⟩
  | .hbm, ⟨26, _⟩ => ⟨S1x1, .f32⟩
  | .hbm, ⟨27, _⟩ => ⟨S_, .f32⟩
  | .hbm, ⟨28, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1, .f32⟩
  | .local _ .vmem, ⟨5, _⟩ => ⟨S256x1, .f32⟩
  | .local _ .vmem, ⟨6, _⟩ => ⟨S1024x2048, .bf16⟩
  | .local _ .vmem, ⟨7, _⟩ => ⟨S1x2048, .f32⟩
  | .local _ .vmem, ⟨8, _⟩ => ⟨S1024x2048, .bf16⟩
  | .local _ .vmem, ⟨9, _⟩ => ⟨S1x2048, .f32⟩
  | .local _ .vmem, ⟨10, _⟩ => ⟨S2048x1024, .bf16⟩
  | .local _ .vmem, ⟨11, _⟩ => ⟨S1x1024, .f32⟩
  | .local _ .vmem, ⟨12, _⟩ => ⟨S2048x1024, .bf16⟩
  | .local _ .vmem, ⟨13, _⟩ => ⟨S1x1024, .f32⟩
  | .local _ .vmem, ⟨14, _⟩ => ⟨S2048x1, .bf16⟩
  | .local _ .vmem, ⟨15, _⟩ => ⟨S1x1, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2048x1 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

class Facts₀ : Prop where
  bitsLt_bf16_f32 : FTy.bits .bf16 < FTy.bits .f32
  shapeCasts_S2048_S1x2048 : S2048.ShapeCasts S1x2048
  shapeCasts_S1024_S1x1024 : S1024.ShapeCasts S1x1024
  shapeCasts_S1_S1x1 : S1.ShapeCasts S1x1
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S256x1024_S256x1024_0_0 : ∀ a, (![0, 0] : Fin 2 → Nat) a + S256x1024.size a ≤ S256x1024.size a
  h_S256x1024 : 0 < S256x1024.numel
  inb_S256x1_S256x1_0_0 : ∀ a, (![0, 0] : Fin 2 → Nat) a + S256x1.size a ≤ S256x1.size a
  h_S256x1 : 0 < S256x1.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x1024_S256 : S256x1024.Reduces [1] S256
  shapeCasts_S256_S256x1 : S256.ShapeCasts S256x1
  reduces_S256x2048_S256 : S256x2048.Reduces [1] S256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  reduces_S256x1_S1 : S256x1.Reduces [0] S1
  broadcasts_S1x1_S8x128 : S1x1.Broadcasts S8x128
  slices_S16x128_S1x1_0_0 : S16x128.Slices ![0, 0] S1x1
  shapeCasts_S1x1_S_ : S1x1.ShapeCasts S_
  slices_S16x128_S1x1_8_0 : S16x128.Slices ![8, 0] S1x1
  dot_S256x1024_S1024x2048_S256x2048_1_0_0_1_n_n_wf : DotDims.WF S256x1024 S1024x2048 S256x2048 [1] [0] [0] [1] [] []
  dot_S256x2048_S2048x1024_S256x1024_1_0_0_1_n_n_wf : DotDims.WF S256x2048 S2048x1024 S256x1024 [1] [0] [0] [1] [] []
  dot_S256x2048_S2048x1_S256x1_1_0_0_1_n_n_wf : DotDims.WF S256x2048 S2048x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S16384x1.size a
  hwx0_2 : ∀ i : grid0.Coords, EltTy.bits .f32 = 32 ∨ (Rect.block (s := S16384x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .bf16 = 32 ∨ (Rect.block (s := S1024x2048) S1024x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x1024.size a ≤ S2048x1024.size a
  hwx0_7 : ∀ i : grid0.Coords, EltTy.bits .bf16 = 32 ∨ (Rect.block (s := S2048x1024) S2048x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x1024.size a ≤ S2048x1024.size a
  hwx0_9 : ∀ i : grid0.Coords, EltTy.bits .bf16 = 32 ∨ (Rect.block (s := S2048x1024) S2048x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2048x1.size a ≤ S2048x1.size a
  hwx0_11 : ∀ i : grid0.Coords, EltTy.bits .bf16 = 32 ∨ (Rect.block (s := S2048x1) S2048x1.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S8x128.size a ≤ S16x128.size a
  hwx0_13 : ∀ i : grid0.Coords, EltTy.bits .f32 = 32 ∨ (Rect.block (s := S16x128) S8x128.size (cc0_transform_13 i) (hinb0_13 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x2048_S2048x1_S256x1_1_0_0_1_n_n : DotDims S256x2048 S2048x1 S256x1 where
  lhsContracting := [1]
  rhsContracting := [0]
  lhsNonContracting := [0]
  rhsNonContracting := [1]
  lhsBatch := []
  rhsBatch := []
  wf := dot_S256x2048_S2048x1_S256x1_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S2048x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S2048x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S2048x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v10) S8x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S16384x1 : Shape := ⟨2, ![16384, 1]⟩
abbrev S1024x2048 : Shape := ⟨2, ![1024, 2048]⟩
abbrev S2048 : Shape := ⟨1, ![2048]⟩
abbrev S2048x1024 : Shape := ⟨2, ![2048, 1024]⟩
abbrev S1024 : Shape := ⟨1, ![1024]⟩
abbrev S2048x1 : Shape := ⟨2, ![2048, 1]⟩
abbrev S1 : Shape := ⟨1, ![1]⟩
abbrev S16384x2048 : Shape := ⟨2, ![16384, 2048]⟩
abbrev S1x2048 : Shape := ⟨2, ![1, 2048]⟩
abbrev S1x1024 : Shape := ⟨2, ![1, 1024]⟩
abbrev S_ : Shape := ⟨0, ![]⟩
abbrev S16384 : Shape := ⟨1, ![16384]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1, .f32⟩
  | .hbm, ⟨3, _⟩ => ⟨S1024x2048, .f32⟩
  | .hbm, ⟨4, _⟩ => ⟨S2048, .f32⟩
  | .hbm, ⟨5, _⟩ => ⟨S1024x2048, .f32⟩
  | .hbm, ⟨6, _⟩ => ⟨S2048, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S2048x1, .f32⟩
  | .hbm, ⟨12, _⟩ => ⟨S1, .f32⟩
  | .hbm, ⟨13, _⟩ => ⟨S16384x2048, .f32⟩
  | .hbm, ⟨14, _⟩ => ⟨S1x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S16384x2048, .f32⟩
  | .hbm, ⟨45, _⟩ => ⟨S16384x1, .f32⟩
  | .hbm, ⟨46, _⟩ => ⟨S1x1, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S_, .f32⟩
  | .hbm, ⟨56, _⟩ => ⟨S16384x1, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S16384x1, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S16384x1, .f32⟩
  | .hbm, ⟨65, _⟩ => ⟨S_, .f32⟩
  | .hbm, ⟨66, _⟩ => ⟨S_, .f32⟩
  | .hbm, ⟨67, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_2 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S16384x2048_S16384_d1 : S16384x2048.ReducesTo [1] S16384
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  reducesTo_S16384x1_S_d0_1 : S16384x1.ReducesTo [0, 1] S_
  dot_S16384x1024_S1024x2048_S16384x2048_1_0_0_1_n_n_wf : DotDims.WF S16384x1024 S1024x2048 S16384x2048 [1] [0] [0] [1] [] []
  dot_S16384x2048_S2048x1024_S16384x1024_1_0_0_1_n_n_wf : DotDims.WF S16384x2048 S2048x1024 S16384x1024 [1] [0] [0] [1] [] []
  dot_S16384x2048_S2048x1_S16384x1_1_0_0_1_n_n_wf : DotDims.WF S16384x2048 S2048x1 S16384x1 [1] [0] [0] [1] [] []

variable [Facts₀]

def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf
def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf
def dot_S16384x2048_S2048x1_S16384x1_1_0_0_1_n_n : DotDims S16384x2048 S2048x1 S16384x1 where
  lhsContracting := [1]
  rhsContracting := [0]
  lhsNonContracting := [0]
  rhsNonContracting := [1]
  lhsBatch := []
  rhsBatch := []
  wf := dot_S16384x2048_S2048x1_S16384x1_1_0_0_1_n_n_wf

class Facts : Prop extends Facts₀ where

variable [Facts]
-- ==== Proof.Pieces.lean ====
/-
  What one grid point leaves behind, in each of the body's two control cases.

  The body keeps a running total in a small scratch block. At the first point of a core's row of the grid it first
  resets the scratch to the zero block; at every point it then adds one number, the point's own contribution, to every
  lane of the scratch (`stored`: a function of the thirteen input blocks and of what the scratch held before), and
  copies the scratch into the output block. So after a point both the scratch and the output block hold `stored` of
  the point's inputs over the previous contents: over the reset block where the point resets, over what the point
  before left where it does not.
-/
import proofs.«134806_j13795434955464_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

/-- A load of a whole block, after a list of stores whose LAST one wrote the whole block, reads that store's
    payload, whatever the earlier stores were. -/
theorem readCov_cons_whole {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl,
    View.ld_unit_zero rfl]

variable {F : FTy → Type} [FloatOps F]

theorem hz : (![0, 0] : Fin 2 → Nat) = fun _ => 0 := funext fun a => by fin_cases a <;> rfl

/-- What a point leaves in the scratch holding `acc`: `acc` plus, in every lane, the sum of the point's four
    contributions, each a function of the input blocks. -/
abbrev stored (x0 : Vec F S256x1024 .f32) (x1 : Vec F S256x1024 .f32) (x2 : Vec F S256x1 .f32) (x3 : Vec F S1024x2048 .bf16) (x4 : Vec F S1x2048 .f32) (x5 : Vec F S1024x2048 .bf16) (x6 : Vec F S1x2048 .f32) (x7 : Vec F S2048x1024 .bf16) (x8 : Vec F S1x1024 .f32) (x9 : Vec F S2048x1024 .bf16) (x10 : Vec F S1x1024 .f32) (x11 : Vec F S2048x1 .bf16) (x12 : Vec F S1x1 .f32) (acc : Vec F S8x128 .f32) : FVec F S8x128 .f32 :=
  k0_pay1 (k0_pay7 x1 (k0_pay6 x0 x3 x4 x9 x10)) (k0_pay8 x0 (k0_pay5 x1 x5 x6) x7 x8) (k0_pay9 (k0_pay3 x0 x3 x4) (k0_pay4 x1 x5 x6)) (k0_pay10 x2 (k0_pay3 x0 x3 x4) (k0_pay4 x1 x5 x6) x11 x12) acc

/-- A point that does not reset: the scratch ends at `stored` over what it held. -/
theorem scratch_B (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S2048x1024 .bf16) (harg9 : arg9.IsWhole) (arg10 : Memref sig .tc .vmem S1x1024 .f32) (harg10 : arg10.IsWhole) (arg11 : Memref sig .tc .vmem S2048x1024 .bf16) (harg11 : arg11.IsWhole) (arg12 : Memref sig .tc .vmem S1x1024 .f32) (harg12 : arg12.IsWhole) (arg13 : Memref sig .tc .vmem S2048x1 .bf16) (harg13 : arg13.IsWhole) (arg14 : Memref sig .tc .vmem S1x1 .f32) (harg14 : arg14.IsWhole) (arg15 : Memref sig .tc .vmem S8x128 .f32) (harg15 : arg15.IsWhole) (arg16 : Memref sig .tc .vmem S8x128 .f32) (harg16 : arg16.IsWhole) (hc0 : ¬cond0_0 i)
    (x0 : Vec F S256x1024 .f32) (x1 : Vec F S256x1024 .f32) (x2 : Vec F S256x1 .f32) (x3 : Vec F S1024x2048 .bf16) (x4 : Vec F S1x2048 .f32) (x5 : Vec F S1024x2048 .bf16) (x6 : Vec F S1x2048 .f32) (x7 : Vec F S2048x1024 .bf16) (x8 : Vec F S1x1024 .f32) (x9 : Vec F S2048x1024 .bf16) (x10 : Vec F S1x1024 .f32) (x11 : Vec F S2048x1 .bf16) (x12 : Vec F S1x1 .f32) (xs0 : Vec F S8x128 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xs0 = stored x0 x1 x2 x3 x4 x5 x6 x7 x8 x9 x10 x11 x12 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x1024) hz, View.ld_unit_zero (S := S256x1) hz, View.ld_unit_zero (S := S1024x2048) hz, View.ld_unit_zero (S := S1x2048) hz, View.ld_unit_zero (S := S2048x1024) hz, View.ld_unit_zero (S := S1x1024) hz, View.ld_unit_zero (S := S2048x1) hz, View.ld_unit_zero (S := S1x1) hz, View.ld_unit_zero (S := S8x128) hz]

/-- and the output block at the same. -/
theorem out_B (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S2048x1024 .bf16) (harg9 : arg9.IsWhole) (arg10 : Memref sig .tc .vmem S1x1024 .f32) (harg10 : arg10.IsWhole) (arg11 : Memref sig .tc .vmem S2048x1024 .bf16) (harg11 : arg11.IsWhole) (arg12 : Memref sig .tc .vmem S1x1024 .f32) (harg12 : arg12.IsWhole) (arg13 : Memref sig .tc .vmem S2048x1 .bf16) (harg13 : arg13.IsWhole) (arg14 : Memref sig .tc .vmem S1x1 .f32) (harg14 : arg14.IsWhole) (arg15 : Memref sig .tc .vmem S8x128 .f32) (harg15 : arg15.IsWhole) (arg16 : Memref sig .tc .vmem S8x128 .f32) (harg16 : arg16.IsWhole) (hc0 : ¬cond0_0 i)
    (x0 : Vec F S256x1024 .f32) (x1 : Vec F S256x1024 .f32) (x2 : Vec F S256x1 .f32) (x3 : Vec F S1024x2048 .bf16) (x4 : Vec F S1x2048 .f32) (x5 : Vec F S1024x2048 .bf16) (x6 : Vec F S1x2048 .f32) (x7 : Vec F S2048x1024 .bf16) (x8 : Vec F S1x1024 .f32) (x9 : Vec F S2048x1024 .bf16) (x10 : Vec F S1x1024 .f32) (x11 : Vec F S2048x1 .bf16) (x12 : Vec F S1x1 .f32) (xs0 : Vec F S8x128 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xs0 = stored x0 x1 x2 x3 x4 x5 x6 x7 x8 x9 x10 x11 x12 xs0 := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xs0)]
  unfold kernelRun0_B
  dsimp only
  sl_unfold_words
  rw [View.canon_unit_zero hz, readCov_cons_whole _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x1024) hz, View.ld_unit_zero (S := S256x1) hz, View.ld_unit_zero (S := S1024x2048) hz, View.ld_unit_zero (S := S1x2048) hz, View.ld_unit_zero (S := S2048x1024) hz, View.ld_unit_zero (S := S1x1024) hz, View.ld_unit_zero (S := S2048x1) hz, View.ld_unit_zero (S := S1x1) hz, View.ld_unit_zero (S := S8x128) hz]

/-- A point that resets: the scratch ends at `stored` over the reset block. -/
theorem scratch_A (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S2048x1024 .bf16) (harg9 : arg9.IsWhole) (arg10 : Memref sig .tc .vmem S1x1024 .f32) (harg10 : arg10.IsWhole) (arg11 : Memref sig .tc .vmem S2048x1024 .bf16) (harg11 : arg11.IsWhole) (arg12 : Memref sig .tc .vmem S1x1024 .f32) (harg12 : arg12.IsWhole) (arg13 : Memref sig .tc .vmem S2048x1 .bf16) (harg13 : arg13.IsWhole) (arg14 : Memref sig .tc .vmem S1x1 .f32) (harg14 : arg14.IsWhole) (arg15 : Memref sig .tc .vmem S8x128 .f32) (harg15 : arg15.IsWhole) (arg16 : Memref sig .tc .vmem S8x128 .f32) (harg16 : arg16.IsWhole) (hc0 : cond0_0 i)
    (x0 : Vec F S256x1024 .f32) (x1 : Vec F S256x1024 .f32) (x2 : Vec F S256x1 .f32) (x3 : Vec F S1024x2048 .bf16) (x4 : Vec F S1x2048 .f32) (x5 : Vec F S1024x2048 .bf16) (x6 : Vec F S1x2048 .f32) (x7 : Vec F S2048x1024 .bf16) (x8 : Vec F S1x1024 .f32) (x9 : Vec F S2048x1024 .bf16) (x10 : Vec F S1x1024 .f32) (x11 : Vec F S2048x1 .bf16) (x12 : Vec F S1x1 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 = stored x0 x1 x2 x3 x4 x5 x6 x7 x8 x9 x10 x11 x12 k0_pay2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12)]
  unfold kernelRun0_A
  dsimp only
  sl_unfold_words
  rw [View.canon_cons_unit_zero (S := S8x128) hz, readCov_cons_whole _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x1024) hz, View.ld_unit_zero (S := S256x1) hz, View.ld_unit_zero (S := S1024x2048) hz, View.ld_unit_zero (S := S1x2048) hz, View.ld_unit_zero (S := S2048x1024) hz, View.ld_unit_zero (S := S1x1024) hz, View.ld_unit_zero (S := S2048x1) hz, View.ld_unit_zero (S := S1x1) hz, View.ld_unit_zero (S := S8x128) hz]

/-- and the output block at the same. -/
theorem out_A (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S2048x1024 .bf16) (harg9 : arg9.IsWhole) (arg10 : Memref sig .tc .vmem S1x1024 .f32) (harg10 : arg10.IsWhole) (arg11 : Memref sig .tc .vmem S2048x1024 .bf16) (harg11 : arg11.IsWhole) (arg12 : Memref sig .tc .vmem S1x1024 .f32) (harg12 : arg12.IsWhole) (arg13 : Memref sig .tc .vmem S2048x1 .bf16) (harg13 : arg13.IsWhole) (arg14 : Memref sig .tc .vmem S1x1 .f32) (harg14 : arg14.IsWhole) (arg15 : Memref sig .tc .vmem S8x128 .f32) (harg15 : arg15.IsWhole) (arg16 : Memref sig .tc .vmem S8x128 .f32) (harg16 : arg16.IsWhole) (hc0 : cond0_0 i)
    (x0 : Vec F S256x1024 .f32) (x1 : Vec F S256x1024 .f32) (x2 : Vec F S256x1 .f32) (x3 : Vec F S1024x2048 .bf16) (x4 : Vec F S1x2048 .f32) (x5 : Vec F S1024x2048 .bf16) (x6 : Vec F S1x2048 .f32) (x7 : Vec F S2048x1024 .bf16) (x8 : Vec F S1x1024 .f32) (x9 : Vec F S2048x1024 .bf16) (x10 : Vec F S1x1024 .f32) (x11 : Vec F S2048x1 .bf16) (x12 : Vec F S1x1 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 = stored x0 x1 x2 x3 x4 x5 x6 x7 x8 x9 x10 x11 x12 k0_pay2 := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12)]
  unfold kernelRun0_A
  dsimp only
  sl_unfold_words
  rw [View.canon_unit_zero hz, readCov_cons_whole _ hz, readCov_cons_whole _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x1024) hz, View.ld_unit_zero (S := S256x1) hz, View.ld_unit_zero (S := S1024x2048) hz, View.ld_unit_zero (S := S1x2048) hz, View.ld_unit_zero (S := S2048x1024) hz, View.ld_unit_zero (S := S1x1024) hz, View.ld_unit_zero (S := S2048x1) hz, View.ld_unit_zero (S := S1x1) hz, View.ld_unit_zero (S := S8x128) hz]

end Cert.KernelIdeal.Pieces

end
-- ==== Proof.Blocks.lean ====
/-
  What the region finds in its input windows.

  The three streamed windows cut the batch into 64 tiles of 256 rows: at grid point `t` the block of the first
  feature array is its rows `256·t … 256·t + 255`, and likewise for the second feature array and the targets. The ten
  weight windows have one block, the whole array, at every point. The weight arrays themselves are written by the host
  before the region: each matrix is the argument in another float format, each bias the argument vector laid out as a
  one-row matrix.
-/
import proofs.«134806_j13795434955464_1_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-! ## The index maps, decided once over the grid -/

theorem index_0 : ∀ t : Fin cfg0.N, win0_0.index t 0 = t.val ∧ win0_0.index t 1 = 0 :=
  (by decide +kernel : ∀ t : Fin grid0.N, win0_0.index t 0 = t.val ∧ win0_0.index t 1 = 0)
theorem index_1 : ∀ t : Fin cfg0.N, win0_1.index t 0 = t.val ∧ win0_1.index t 1 = 0 :=
  (by decide +kernel : ∀ t : Fin grid0.N, win0_1.index t 0 = t.val ∧ win0_1.index t 1 = 0)
theorem index_2 : ∀ t : Fin cfg0.N, win0_2.index t 0 = t.val ∧ win0_2.index t 1 = 0 :=
  (by decide +kernel : ∀ t : Fin grid0.N, win0_2.index t 0 = t.val ∧ win0_2.index t 1 = 0)
theorem index_3 : ∀ t : Fin cfg0.N, win0_3.index t 0 = 0 ∧ win0_3.index t 1 = 0 :=
  (by decide +kernel : ∀ t : Fin grid0.N, win0_3.index t 0 = 0 ∧ win0_3.index t 1 = 0)
theorem index_4 : ∀ t : Fin cfg0.N, win0_4.index t 0 = 0 ∧ win0_4.index t 1 = 0 :=
  (by decide +kernel : ∀ t : Fin grid0.N, win0_4.index t 0 = 0 ∧ win0_4.index t 1 = 0)
theorem index_5 : ∀ t : Fin cfg0.N, win0_5.index t 0 = 0 ∧ win0_5.index t 1 = 0 :=
  (by decide +kernel : ∀ t : Fin grid0.N, win0_5.index t 0 = 0 ∧ win0_5.index t 1 = 0)
theorem index_6 : ∀ t : Fin cfg0.N, win0_6.index t 0 = 0 ∧ win0_6.index t 1 = 0 :=
  (by decide +kernel : ∀ t : Fin grid0.N, win0_6.index t 0 = 0 ∧ win0_6.index t 1 = 0)
theorem index_7 : ∀ t : Fin cfg0.N, win0_7.index t 0 = 0 ∧ win0_7.index t 1 = 0 :=
  (by decide +kernel : ∀ t : Fin grid0.N, win0_7.index t 0 = 0 ∧ win0_7.index t 1 = 0)
theorem index_8 : ∀ t : Fin cfg0.N, win0_8.index t 0 = 0 ∧ win0_8.index t 1 = 0 :=
  (by decide +kernel : ∀ t : Fin grid0.N, win0_8.index t 0 = 0 ∧ win0_8.index t 1 = 0)
theorem index_9 : ∀ t : Fin cfg0.N, win0_9.index t 0 = 0 ∧ win0_9.index t 1 = 0 :=
  (by decide +kernel : ∀ t : Fin grid0.N, win0_9.index t 0 = 0 ∧ win0_9.index t 1 = 0)
theorem index_10 : ∀ t : Fin cfg0.N, win0_10.index t 0 = 0 ∧ win0_10.index t 1 = 0 :=
  (by decide +kernel : ∀ t : Fin grid0.N, win0_10.index t 0 = 0 ∧ win0_10.index t 1 = 0)
theorem index_11 : ∀ t : Fin cfg0.N, win0_11.index t 0 = 0 ∧ win0_11.index t 1 = 0 :=
  (by decide +kernel : ∀ t : Fin grid0.N, win0_11.index t 0 = 0 ∧ win0_11.index t 1 = 0)
theorem index_12 : ∀ t : Fin cfg0.N, win0_12.index t 0 = 0 ∧ win0_12.index t 1 = 0 :=
  (by decide +kernel : ∀ t : Fin grid0.N, win0_12.index t 0 = 0 ∧ win0_12.index t 1 = 0)

/-! ## The blocks -/

/-- Window 0's block at point `t` is rows `256·t + p` of its array. -/
theorem block_0 (c : Dev nD) (t : Fin cfg0.N) (x : S256x1024.Idx) (k : S16384x1024.Idx)
    (hk0 : (k 0).val = t.val * 256 + (x 0).val) (hk1 : (k 1).val = (x 1).val) :
    (iblk m c 0 t : Vec F S256x1024 .f32) x = (V m c main_arg0 : S16384x1024.Idx → Elt F .f32) k := by
  unfold iblk
  rw [View.read_apply]
  show V m c main_arg0 _ = V m c main_arg0 _
  congr 1
  funext a
  apply Fin.ext
  match a with
  | ⟨0, _⟩ => show win0_0.index t 0 * 256 + 1 * (x 0).val = (k 0).val; rw [(index_0 t).1, hk0]; omega
  | ⟨1, _⟩ => show win0_0.index t 1 * 1024 + 1 * (x 1).val = (k 1).val; rw [(index_0 t).2, hk1]; omega

/-- Window 1's block at point `t` is rows `256·t + p` of its array. -/
theorem block_1 (c : Dev nD) (t : Fin cfg0.N) (x : S256x1024.Idx) (k : S16384x1024.Idx)
    (hk0 : (k 0).val = t.val * 256 + (x 0).val) (hk1 : (k 1).val = (x 1).val) :
    (iblk m c 1 t : Vec F S256x1024 .f32) x = (V m c main_arg1 : S16384x1024.Idx → Elt F .f32) k := by
  unfold iblk
  rw [View.read_apply]
  show V m c main_arg1 _ = V m c main_arg1 _
  congr 1
  funext a
  apply Fin.ext
  match a with
  | ⟨0, _⟩ => show win0_1.index t 0 * 256 + 1 * (x 0).val = (k 0).val; rw [(index_1 t).1, hk0]; omega
  | ⟨1, _⟩ => show win0_1.index t 1 * 1024 + 1 * (x 1).val = (k 1).val; rw [(index_1 t).2, hk1]; omega

/-- Window 2's block at point `t` is rows `256·t + p` of its array. -/
theorem block_2 (c : Dev nD) (t : Fin cfg0.N) (x : S256x1.Idx) (k : S16384x1.Idx)
    (hk0 : (k 0).val = t.val * 256 + (x 0).val) (hk1 : (k 1).val = (x 1).val) :
    (iblk m c 2 t : Vec F S256x1 .f32) x = (V m c main_arg2 : S16384x1.Idx → Elt F .f32) k := by
  unfold iblk
  rw [View.read_apply]
  show V m c main_arg2 _ = V m c main_arg2 _
  congr 1
  funext a
  apply Fin.ext
  match a with
  | ⟨0, _⟩ => show win0_2.index t 0 * 256 + 1 * (x 0).val = (k 0).val; rw [(index_2 t).1, hk0]; omega
  | ⟨1, _⟩ => show win0_2.index t 1 * 1 + 1 * (x 1).val = (k 1).val; rw [(index_2 t).2, hk1]; omega

/-- Window 3's one block is its whole array. -/
theorem block_3 (c : Dev nD) (t : Fin cfg0.N) :
    (iblk m c 3 t : Vec F S1024x2048 .bf16) = (V m c main_v0 : S1024x2048.Idx → Elt F .bf16) := by
  funext x
  unfold iblk
  rw [View.read_apply]
  show V m c main_v0 _ = V m c main_v0 _
  congr 1
  funext a
  apply Fin.ext
  match a with
  | ⟨0, _⟩ => show win0_3.index t 0 * 1024 + 1 * (x 0).val = (x 0).val; rw [(index_3 t).1]; omega
  | ⟨1, _⟩ => show win0_3.index t 1 * 2048 + 1 * (x 1).val = (x 1).val; rw [(index_3 t).2]; omega

/-- Window 4's one block is its whole array. -/
theorem block_4 (c : Dev nD) (t : Fin cfg0.N) :
    (iblk m c 4 t : Vec F S1x2048 .f32) = (V m c main_v5 : S1x2048.Idx → Elt F .f32) := by
  funext x
  unfold iblk
  rw [View.read_apply]
  show V m c main_v5 _ = V m c main_v5 _
  congr 1
  funext a
  apply Fin.ext
  match a with
  | ⟨0, _⟩ => show win0_4.index t 0 * 1 + 1 * (x 0).val = (x 0).val; rw [(index_4 t).1]; omega
  | ⟨1, _⟩ => show win0_4.index t 1 * 2048 + 1 * (x 1).val = (x 1).val; rw [(index_4 t).2]; omega

/-- Window 5's one block is its whole array. -/
theorem block_5 (c : Dev nD) (t : Fin cfg0.N) :
    (iblk m c 5 t : Vec F S1024x2048 .bf16) = (V m c main_v1 : S1024x2048.Idx → Elt F .bf16) := by
  funext x
  unfold iblk
  rw [View.read_apply]
  show V m c main_v1 _ = V m c main_v1 _
  congr 1
  funext a
  apply Fin.ext
  match a with
  | ⟨0, _⟩ => show win0_5.index t 0 * 1024 + 1 * (x 0).val = (x 0).val; rw [(index_5 t).1]; omega
  | ⟨1, _⟩ => show win0_5.index t 1 * 2048 + 1 * (x 1).val = (x 1).val; rw [(index_5 t).2]; omega

/-- Window 6's one block is its whole array. -/
theorem block_6 (c : Dev nD) (t : Fin cfg0.N) :
    (iblk m c 6 t : Vec F S1x2048 .f32) = (V m c main_v6 : S1x2048.Idx → Elt F .f32) := by
  funext x
  unfold iblk
  rw [View.read_apply]
  show V m c main_v6 _ = V m c main_v6 _
  congr 1
  funext a
  apply Fin.ext
  match a with
  | ⟨0, _⟩ => show win0_6.index t 0 * 1 + 1 * (x 0).val = (x 0).val; rw [(index_6 t).1]; omega
  | ⟨1, _⟩ => show win0_6.index t 1 * 2048 + 1 * (x 1).val = (x 1).val; rw [(index_6 t).2]; omega

/-- Window 7's one block is its whole array. -/
theorem block_7 (c : Dev nD) (t : Fin cfg0.N) :
    (iblk m c 7 t : Vec F S2048x1024 .bf16) = (V m c main_v2 : S2048x1024.Idx → Elt F .bf16) := by
  funext x
  unfold iblk
  rw [View.read_apply]
  show V m c main_v2 _ = V m c main_v2 _
  congr 1
  funext a
  apply Fin.ext
  match a with
  | ⟨0, _⟩ => show win0_7.index t 0 * 2048 + 1 * (x 0).val = (x 0).val; rw [(index_7 t).1]; omega
  | ⟨1, _⟩ => show win0_7.index t 1 * 1024 + 1 * (x 1).val = (x 1).val; rw [(index_7 t).2]; omega

/-- Window 8's one block is its whole array. -/
theorem block_8 (c : Dev nD) (t : Fin cfg0.N) :
    (iblk m c 8 t : Vec F S1x1024 .f32) = (V m c main_v7 : S1x1024.Idx → Elt F .f32) := by
  funext x
  unfold iblk
  rw [View.read_apply]
  show V m c main_v7 _ = V m c main_v7 _
  congr 1
  funext a
  apply Fin.ext
  match a with
  | ⟨0, _⟩ => show win0_8.index t 0 * 1 + 1 * (x 0).val = (x 0).val; rw [(index_8 t).1]; omega
  | ⟨1, _⟩ => show win0_8.index t 1 * 1024 + 1 * (x 1).val = (x 1).val; rw [(index_8 t).2]; omega

/-- Window 9's one block is its whole array. -/
theorem block_9 (c : Dev nD) (t : Fin cfg0.N) :
    (iblk m c 9 t : Vec F S2048x1024 .bf16) = (V m c main_v3 : S2048x1024.Idx → Elt F .bf16) := by
  funext x
  unfold iblk
  rw [View.read_apply]
  show V m c main_v3 _ = V m c main_v3 _
  congr 1
  funext a
  apply Fin.ext
  match a with
  | ⟨0, _⟩ => show win0_9.index t 0 * 2048 + 1 * (x 0).val = (x 0).val; rw [(index_9 t).1]; omega
  | ⟨1, _⟩ => show win0_9.index t 1 * 1024 + 1 * (x 1).val = (x 1).val; rw [(index_9 t).2]; omega

/-- Window 10's one block is its whole array. -/
theorem block_10 (c : Dev nD) (t : Fin cfg0.N) :
    (iblk m c 10 t : Vec F S1x1024 .f32) = (V m c main_v8 : S1x1024.Idx → Elt F .f32) := by
  funext x
  unfold iblk
  rw [View.read_apply]
  show V m c main_v8 _ = V m c main_v8 _
  congr 1
  funext a
  apply Fin.ext
  match a with
  | ⟨0, _⟩ => show win0_10.index t 0 * 1 + 1 * (x 0).val = (x 0).val; rw [(index_10 t).1]; omega
  | ⟨1, _⟩ => show win0_10.index t 1 * 1024 + 1 * (x 1).val = (x 1).val; rw [(index_10 t).2]; omega

/-- Window 11's one block is its whole array. -/
theorem block_11 (c : Dev nD) (t : Fin cfg0.N) :
    (iblk m c 11 t : Vec F S2048x1 .bf16) = (V m c main_v4 : S2048x1.Idx → Elt F .bf16) := by
  funext x
  unfold iblk
  rw [View.read_apply]
  show V m c main_v4 _ = V m c main_v4 _
  congr 1
  funext a
  apply Fin.ext
  match a with
  | ⟨0, _⟩ => show win0_11.index t 0 * 2048 + 1 * (x 0).val = (x 0).val; rw [(index_11 t).1]; omega
  | ⟨1, _⟩ => show win0_11.index t 1 * 1 + 1 * (x 1).val = (x 1).val; rw [(index_11 t).2]; omega

/-- Window 12's one block is its whole array. -/
theorem block_12 (c : Dev nD) (t : Fin cfg0.N) :
    (iblk m c 12 t : Vec F S1x1 .f32) = (V m c main_v9 : S1x1.Idx → Elt F .f32) := by
  funext x
  unfold iblk
  rw [View.read_apply]
  show V m c main_v9 _ = V m c main_v9 _
  congr 1
  funext a
  apply Fin.ext
  match a with
  | ⟨0, _⟩ => show win0_12.index t 0 * 1 + 1 * (x 0).val = (x 0).val; rw [(index_12 t).1]; omega
  | ⟨1, _⟩ => show win0_12.index t 1 * 1 + 1 * (x 1).val = (x 1).val; rw [(index_12 t).2]; omega

/-! ## The weight arrays as the host left them -/

theorem V_main_v0 (c : Dev nD) : (V m c main_v0 : S1024x2048.Idx → Elt F .bf16) = truncf .bf16 (m ((c : Thread nD τ).loc main_arg3)) bitsLt_bf16_f32 := by
  show StableHlo.after hostOps0 (fun b => m (c, b)) (Proc.devRef .tc main_v0) = _
  after_results

theorem V_main_v1 (c : Dev nD) : (V m c main_v1 : S1024x2048.Idx → Elt F .bf16) = truncf .bf16 (m ((c : Thread nD τ).loc main_arg5)) bitsLt_bf16_f32 := by
  show StableHlo.after hostOps0 (fun b => m (c, b)) (Proc.devRef .tc main_v1) = _
  after_results

theorem V_main_v2 (c : Dev nD) : (V m c main_v2 : S2048x1024.Idx → Elt F .bf16) = truncf .bf16 (m ((c : Thread nD τ).loc main_arg7)) bitsLt_bf16_f32 := by
  show StableHlo.after hostOps0 (fun b => m (c, b)) (Proc.devRef .tc main_v2) = _
  after_results

theorem V_main_v3 (c : Dev nD) : (V m c main_v3 : S2048x1024.Idx → Elt F .bf16) = truncf .bf16 (m ((c : Thread nD τ).loc main_arg9)) bitsLt_bf16_f32 := by
  show StableHlo.after hostOps0 (fun b => m (c, b)) (Proc.devRef .tc main_v3) = _
  after_results

theorem V_main_v4 (c : Dev nD) : (V m c main_v4 : S2048x1.Idx → Elt F .bf16) = truncf .bf16 (m ((c : Thread nD τ).loc main_arg11)) bitsLt_bf16_f32 := by
  show StableHlo.after hostOps0 (fun b => m (c, b)) (Proc.devRef .tc main_v4) = _
  after_results

theorem V_main_v5 (c : Dev nD) : (V m c main_v5 : S1x2048.Idx → Elt F .f32) = shapeCast S1x2048 (m ((c : Thread nD τ).loc main_arg4)) shapeCasts_S2048_S1x2048 := by
  show StableHlo.after hostOps0 (fun b => m (c, b)) (Proc.devRef .tc main_v5) = _
  after_results
  rfl

theorem V_main_v6 (c : Dev nD) : (V m c main_v6 : S1x2048.Idx → Elt F .f32) = shapeCast S1x2048 (m ((c : Thread nD τ).loc main_arg6)) shapeCasts_S2048_S1x2048 := by
  show StableHlo.after hostOps0 (fun b => m (c, b)) (Proc.devRef .tc main_v6) = _
  after_results
  rfl

theorem V_main_v7 (c : Dev nD) : (V m c main_v7 : S1x1024.Idx → Elt F .f32) = shapeCast S1x1024 (m ((c : Thread nD τ).loc main_arg8)) shapeCasts_S1024_S1x1024 := by
  show StableHlo.after hostOps0 (fun b => m (c, b)) (Proc.devRef .tc main_v7) = _
  after_results
  rfl

theorem V_main_v8 (c : Dev nD) : (V m c main_v8 : S1x1024.Idx → Elt F .f32) = shapeCast S1x1024 (m ((c : Thread nD τ).loc main_arg10)) shapeCasts_S1024_S1x1024 := by
  show StableHlo.after hostOps0 (fun b => m (c, b)) (Proc.devRef .tc main_v8) = _
  after_results
  rfl

theorem V_main_v9 (c : Dev nD) : (V m c main_v9 : S1x1.Idx → Elt F .f32) = shapeCast S1x1 (m ((c : Thread nD τ).loc main_arg12)) shapeCasts_S1_S1x1 := by
  show StableHlo.after hostOps0 (fun b => m (c, b)) (Proc.devRef .tc main_v9) = _
  after_results
  rfl

end Cert.KernelIdeal.Blocks

end
-- ==== Proof.Loss.lean ====
/-
  The mathematics of the loss, with no program in sight.

  A row of the batch is a pair of feature vectors `x₁, x₂ : Fin 1024 → EReal` and a target `y`. Two encoders map the
  rows into a hidden space of width 2048 (`enc`), two decoders map the hidden vectors back (`dec`), and a row
  contributes four terms: the squared distance between the translation of `x₁` and `x₂` (`t1`), the same the other way
  round (`t2`), the squared distance between the two hidden vectors (`t3`), and half the output unit's response to their
  sum, less the target (`t4`). The loss is the sum over all 16384 rows of the squares of these four terms (`total`).

  The same number is reached tile by tile: 64 tiles of 256 consecutive rows, each tile adding up the squares of its own
  rows' terms (`blockSum`, `tile`), the first 32 tiles into one accumulator and the last 32 into another, and the two
  accumulators added at the end (`tiles_eq_total`). Only two facts about the extended reals are used: addition is
  commutative and associative, so a finite sum may be cut into consecutive runs and regrouped term by term; and
  multiplication by the nonnegative real `1/2` distributes over a sum, infinite summands included (`add_mul_half`),
  which is what lets the tilewise form halve the output unit's response and its bias separately (`t4'`).
-/
import Idealize.ShloMosaic.PureOps.Ideal.Laws
import Idealize.ShloMosaic.Lib.ValueIdx
import Mathlib.Data.EReal.Operations
import Mathlib.Algebra.BigOperators.Intervals

noncomputable section

open scoped BigOperators
open Finset
open Idealize.ShloMosaic Idealize.ShloMosaic.ValueIdx

namespace Cert.Loss

/-- The word `0x3F000000` read as an extended real. -/
abbrev half : EReal := Ideal.ofBits .f32 0x3F000000#32

/-- It denotes the real number one half. -/
theorem half_eq : half = ((1 / 2 : ℝ) : EReal) := by
  simp [half, Ideal.ofBits, Ideal.ieee, -EReal.coe_mul]; norm_num

/-- Halving distributes over a sum of extended reals, whatever the summands: `1/2` is a nonnegative real. -/
theorem add_mul_half (a b : EReal) : (a + b) * half = a * half + b * half := by
  rw [half_eq]
  exact EReal.right_distrib_of_nonneg_of_ne_top (EReal.coe_nonneg.mpr (by norm_num)) (EReal.coe_ne_top _) a b

/-- Row `n` of an array of 16384 rows, for every natural `n` (zero past the last row, which no sum below reaches). -/
def rows {K : ℕ} (A : (⟨2, ![16384, K]⟩ : Shape).Idx → EReal) (n : ℕ) (k : Fin K) : EReal :=
  if h : n < 16384 then A (ix2 ⟨n, h⟩ k) else 0

theorem rows_of_lt {K : ℕ} (A : (⟨2, ![16384, K]⟩ : Shape).Idx → EReal) (n : ℕ) (h : n < 16384) (k : Fin K) :
    rows A n k = A (ix2 ⟨n, h⟩ k) := dif_pos h

/-- The weights: two encoders `(W₁, c₁)`, `(W₂, c₂)`, two decoders `(U₁, d₁)` (back to the first feature space) and
    `(U₂, d₂)` (to the second), and the output unit `(wo, bo)`. -/
structure Params where
  W1 : Fin 1024 → Fin 2048 → EReal
  c1 : Fin 2048 → EReal
  W2 : Fin 1024 → Fin 2048 → EReal
  c2 : Fin 2048 → EReal
  U1 : Fin 2048 → Fin 1024 → EReal
  d1 : Fin 1024 → EReal
  U2 : Fin 2048 → Fin 1024 → EReal
  d2 : Fin 1024 → EReal
  wo : Fin 2048 → EReal
  bo : EReal

/-- The weights read off arrays in which every bias is a row vector `[1, n]` and the output unit a column `[2048, 1]`. -/
def paramsOfBlocks (w1 : (⟨2, ![1024, 2048]⟩ : Shape).Idx → EReal) (b1 : (⟨2, ![1, 2048]⟩ : Shape).Idx → EReal)
    (w2 : (⟨2, ![1024, 2048]⟩ : Shape).Idx → EReal) (b2 : (⟨2, ![1, 2048]⟩ : Shape).Idx → EReal)
    (u1 : (⟨2, ![2048, 1024]⟩ : Shape).Idx → EReal) (e1 : (⟨2, ![1, 1024]⟩ : Shape).Idx → EReal)
    (u2 : (⟨2, ![2048, 1024]⟩ : Shape).Idx → EReal) (e2 : (⟨2, ![1, 1024]⟩ : Shape).Idx → EReal)
    (wo : (⟨2, ![2048, 1]⟩ : Shape).Idx → EReal) (bo : (⟨2, ![1, 1]⟩ : Shape).Idx → EReal) : Params where
  W1 k j := w1 (ix2 k j)
  c1 j := b1 (ix2 0 j)
  W2 k j := w2 (ix2 k j)
  c2 j := b2 (ix2 0 j)
  U1 k j := u1 (ix2 k j)
  d1 j := e1 (ix2 0 j)
  U2 k j := u2 (ix2 k j)
  d2 j := e2 (ix2 0 j)
  wo j := wo (ix2 j 0)
  bo := bo (ix2 0 0)

/-- The weights read off arrays in which every bias is a plain vector `[n]`. -/
def paramsOfArrays (w1 : (⟨2, ![1024, 2048]⟩ : Shape).Idx → EReal) (b1 : (⟨1, ![2048]⟩ : Shape).Idx → EReal)
    (w2 : (⟨2, ![1024, 2048]⟩ : Shape).Idx → EReal) (b2 : (⟨1, ![2048]⟩ : Shape).Idx → EReal)
    (u1 : (⟨2, ![2048, 1024]⟩ : Shape).Idx → EReal) (e1 : (⟨1, ![1024]⟩ : Shape).Idx → EReal)
    (u2 : (⟨2, ![2048, 1024]⟩ : Shape).Idx → EReal) (e2 : (⟨1, ![1024]⟩ : Shape).Idx → EReal)
    (wo : (⟨2, ![2048, 1]⟩ : Shape).Idx → EReal) (bo : (⟨1, ![1]⟩ : Shape).Idx → EReal) : Params where
  W1 k j := w1 (ix2 k j)
  c1 j := b1 (ix1 j)
  W2 k j := w2 (ix2 k j)
  c2 j := b2 (ix1 j)
  U1 k j := u1 (ix2 k j)
  d1 j := e1 (ix1 j)
  U2 k j := u2 (ix2 k j)
  d2 j := e2 (ix1 j)
  wo j := wo (ix2 j 0)
  bo := bo (ix1 0)

/-- An encoder: `x ↦ x·W + c`. -/
def enc (W : Fin 1024 → Fin 2048 → EReal) (c : Fin 2048 → EReal) (x : Fin 1024 → EReal) (j : Fin 2048) : EReal :=
  (∑ k, x k * W k j) + c j

/-- A decoder: `h ↦ h·U + d`. -/
def dec (U : Fin 2048 → Fin 1024 → EReal) (d : Fin 1024 → EReal) (h : Fin 2048 → EReal) (j : Fin 1024) : EReal :=
  (∑ k, h k * U k j) + d j

/-- The squared distance between two vectors. -/
def sqdist {K : ℕ} (a b : Fin K → EReal) : EReal := ∑ j, (a j - b j) * (a j - b j)

/-- The output unit's response to a hidden vector, before its bias. -/
def resp (wo : Fin 2048 → EReal) (h : Fin 2048 → EReal) : EReal := ∑ j, h j * wo j

section
variable (P : Params)

/-- A row's two hidden vectors. -/
def h1 (x1 : Fin 1024 → EReal) : Fin 2048 → EReal := enc P.W1 P.c1 x1
def h2 (x2 : Fin 1024 → EReal) : Fin 2048 → EReal := enc P.W2 P.c2 x2

/-- A row's four terms. -/
def t1 (x1 x2 : Fin 1024 → EReal) : EReal := sqdist (dec P.U2 P.d2 (h1 P x1)) x2
def t2 (x1 x2 : Fin 1024 → EReal) : EReal := sqdist (dec P.U1 P.d1 (h2 P x2)) x1
def t3 (x1 x2 : Fin 1024 → EReal) : EReal := sqdist (h1 P x1) (h2 P x2)
def t4 (x1 x2 : Fin 1024 → EReal) (y : EReal) : EReal :=
  (resp P.wo (fun j => h1 P x1 j + h2 P x2 j) + P.bo) * half - y

/-- The fourth term with the response and the bias halved separately. -/
def t4' (x1 x2 : Fin 1024 → EReal) (y : EReal) : EReal :=
  (resp P.wo (fun j => h1 P x1 j + h2 P x2 j) * half + P.bo * half) - y

theorem t4'_eq (x1 x2 : Fin 1024 → EReal) (y : EReal) : t4' P x1 x2 y = t4 P x1 x2 y := by
  unfold t4' t4; rw [add_mul_half]

/-- A block of 256 rows: the squares of its rows' four terms, each term's squares summed first. -/
def blockSum (x1 x2 : Fin 256 → Fin 1024 → EReal) (y : Fin 256 → EReal) : EReal :=
  ((∑ p, t1 P (x1 p) (x2 p) * t1 P (x1 p) (x2 p) + ∑ p, t2 P (x1 p) (x2 p) * t2 P (x1 p) (x2 p))
    + ∑ p, t3 P (x1 p) (x2 p) * t3 P (x1 p) (x2 p))
  + ∑ p, t4' P (x1 p) (x2 p) (y p) * t4' P (x1 p) (x2 p) (y p)

variable (X1 X2 : ℕ → Fin 1024 → EReal) (Y : ℕ → EReal)

/-- The loss: over all 16384 rows, the squares of the four terms, each term's squares summed first. -/
def total : EReal :=
  ((∑ n ∈ range 16384, t1 P (X1 n) (X2 n) * t1 P (X1 n) (X2 n) + ∑ n ∈ range 16384, t2 P (X1 n) (X2 n) * t2 P (X1 n) (X2 n))
    + ∑ n ∈ range 16384, t3 P (X1 n) (X2 n) * t3 P (X1 n) (X2 n))
  + ∑ n ∈ range 16384, t4 P (X1 n) (X2 n) (Y n) * t4 P (X1 n) (X2 n) (Y n)

/-- Tile `τ`'s contribution: the block of rows `256·τ + p`. -/
def tile (τ : ℕ) : EReal :=
  blockSum P (fun p => X1 (τ * 256 + p.val)) (fun p => X2 (τ * 256 + p.val)) (fun p => Y (τ * 256 + p.val))

end

/-- A sum over `T` tiles of 256 is the sum over the `256·T` rows. -/
theorem sum_tiles (f : ℕ → EReal) (T : ℕ) :
    ∑ τ ∈ range T, ∑ p : Fin 256, f (τ * 256 + p.val) = ∑ n ∈ range (T * 256), f n := by
  induction T with
  | zero => simp
  | succ T ih =>
    rw [sum_range_succ, ih, Nat.succ_mul, sum_range_add, ← Finset.sum_range (fun p => f (T * 256 + p))]

/-- Two accumulators of 32 tiles each, added, hold the loss. -/
theorem tiles_eq_total (P : Params) (X1 X2 : ℕ → Fin 1024 → EReal) (Y : ℕ → EReal) :
    (∑ τ ∈ range 32, tile P X1 X2 Y τ) + (∑ τ ∈ range 32, tile P X1 X2 Y (32 + τ)) = total P X1 X2 Y := by
  rw [← sum_range_add (tile P X1 X2 Y) 32 32]
  unfold tile blockSum total
  simp only [t4'_eq]
  rw [sum_add_distrib, sum_add_distrib, sum_add_distrib,
    sum_tiles (fun n => t1 P (X1 n) (X2 n) * t1 P (X1 n) (X2 n)), sum_tiles (fun n => t2 P (X1 n) (X2 n) * t2 P (X1 n) (X2 n)),
    sum_tiles (fun n => t3 P (X1 n) (X2 n) * t3 P (X1 n) (X2 n)),
    sum_tiles (fun n => t4 P (X1 n) (X2 n) (Y n) * t4 P (X1 n) (X2 n) (Y n))]

end Cert.Loss

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.Tile.lean ====
/-
  What one grid point adds to the accumulator.

  At a grid point the kernel body holds a tile of 256 rows of the two feature arrays and of the targets, and all the
  weights. It forms the two hidden matrices (each a matrix product plus a bias row), the two translations (again a product
  plus a bias row), the three squared distances of every row as lane sums, the output unit's halved response, and then for
  each of the four terms the sum over the 256 rows of the term squared. The four numbers are added and the total is added to
  every entry of the [8, 128] accumulator. This file reads that value at an entry: the old entry plus the tile's sum of
  squares as the loss defines it.
-/
import proofs.«134806_j13795434955464_1_alg».proof.Proof.Gen.KernelIdeal.Skeleton
import proofs.«134806_j13795434955464_1_alg».proof.Proof.Loss
import proofs.«134806_j13795434955464_1_alg».proof.Proof.LibPlainMatmul
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The three matrix products' index maps

Each product contracts the left operand's columns with the right operand's rows and keeps the left rows and the right
columns. The four facts below say so for each of the three dimension records, one coordinate at a time. -/

theorem lhsA_0 (i : S256x2048.Idx) (q : dot_S256x1024_S1024x2048_S256x2048_1_0_0_1_n_n.contr.Idx) :
    (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem lhsA_1 (i : S256x2048.Idx) (q : dot_S256x1024_S1024x2048_S256x2048_1_0_0_1_n_n.contr.Idx) :
    (dot_S256x1024_S1024x2048_S256x2048_1_0_0_1_n_n.lhsIdx i q 1).val = (q ⟨0, by decide⟩).val :=
  dot_S256x1024_S1024x2048_S256x2048_1_0_0_1_n_n.lhsIdx_val_of_single rfl i q
theorem rhsA_0 (i : S256x2048.Idx) (q : dot_S256x1024_S1024x2048_S256x2048_1_0_0_1_n_n.contr.Idx) :
    (dot_S256x1024_S1024x2048_S256x2048_1_0_0_1_n_n.rhsIdx i q 0).val = (q ⟨0, by decide⟩).val :=
  dot_S256x1024_S1024x2048_S256x2048_1_0_0_1_n_n.rhsIdx_val_of_single rfl i q
theorem rhsA_1 (i : S256x2048.Idx) (q : dot_S256x1024_S1024x2048_S256x2048_1_0_0_1_n_n.contr.Idx) :
    (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

theorem lhsB_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem lhsB_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem rhsB_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem rhsB_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

theorem lhsC_0 (i : S256x1.Idx) (q : dot_S256x2048_S2048x1_S256x1_1_0_0_1_n_n.contr.Idx) :
    (dot_S256x2048_S2048x1_S256x1_1_0_0_1_n_n.lhsIdx i q 0).val = (i 0).val := by
  unfold DotDims.lhsIdx
  rw [dif_neg (show ¬(0 : Fin S256x2048.rank) ∈ dot_S256x2048_S2048x1_S256x1_1_0_0_1_n_n.lhsBatch by decide), dif_pos (show (0 : Fin S256x2048.rank) ∈ dot_S256x2048_S2048x1_S256x1_1_0_0_1_n_n.lhsNonContracting by decide)]
  rfl
theorem lhsC_1 (i : S256x1.Idx) (q : dot_S256x2048_S2048x1_S256x1_1_0_0_1_n_n.contr.Idx) :
    (dot_S256x2048_S2048x1_S256x1_1_0_0_1_n_n.lhsIdx i q 1).val = (q ⟨0, by decide⟩).val :=
  dot_S256x2048_S2048x1_S256x1_1_0_0_1_n_n.lhsIdx_val_of_single rfl i q
theorem rhsC_0 (i : S256x1.Idx) (q : dot_S256x2048_S2048x1_S256x1_1_0_0_1_n_n.contr.Idx) :
    (dot_S256x2048_S2048x1_S256x1_1_0_0_1_n_n.rhsIdx i q 0).val = (q ⟨0, by decide⟩).val :=
  dot_S256x2048_S2048x1_S256x1_1_0_0_1_n_n.rhsIdx_val_of_single rfl i q
theorem rhsC_1 (i : S256x1.Idx) (q : dot_S256x2048_S2048x1_S256x1_1_0_0_1_n_n.contr.Idx) :
    (dot_S256x2048_S2048x1_S256x1_1_0_0_1_n_n.rhsIdx i q 1).val = (i 1).val := by
  unfold DotDims.rhsIdx
  rw [dif_neg (show ¬(1 : Fin S2048x1.rank) ∈ dot_S256x2048_S2048x1_S256x1_1_0_0_1_n_n.rhsBatch by decide), dif_pos (show (1 : Fin S2048x1.rank) ∈ dot_S256x2048_S2048x1_S256x1_1_0_0_1_n_n.rhsNonContracting by decide)]
  rfl

/-- The first encoder's product, into the zero matrix, at row p and column o. -/
theorem matmulA_apply (A : FVec Ideal S256x1024 .bf16) (B : FVec Ideal S1024x2048 .bf16) (p : Fin 256) (o : Fin 2048) :
    FloatOps.matmul dot_S256x1024_S1024x2048_S256x2048_1_0_0_1_n_n none A B (constant (F := Ideal) S256x2048 .f32 0x00000000#32) (ix2 p o)
      = ∑ k : Fin 1024, A (ix2 p k) * B (ix2 k o) :=
  Cert.LibPlainMatmul.matmul_zero_apply dot_S256x1024_S1024x2048_S256x2048_1_0_0_1_n_n none rfl rfl lhsA_0 lhsA_1 rhsA_0 rhsA_1 A B p o

/-- A decoder's product, into the zero matrix, at row p and column o. -/
theorem matmulB_apply (A : FVec Ideal S256x2048 .bf16) (B : FVec Ideal S2048x1024 .bf16) (p : Fin 256) (o : Fin 1024) :
    FloatOps.matmul dot_S256x2048_S2048x1024_S256x1024_1_0_0_1_n_n none A B (constant (F := Ideal) S256x1024 .f32 0x00000000#32) (ix2 p o)
      = ∑ k : Fin 2048, A (ix2 p k) * B (ix2 k o) :=
  Cert.LibPlainMatmul.matmul_zero_apply dot_S256x2048_S2048x1024_S256x1024_1_0_0_1_n_n none rfl rfl lhsB_0 lhsB_1 rhsB_0 rhsB_1 A B p o

/-- The output unit's product, into the zero column, at row p and column o. -/
theorem matmulC_apply (A : FVec Ideal S256x2048 .bf16) (B : FVec Ideal S2048x1 .bf16) (p : Fin 256) (o : Fin 1) :
    FloatOps.matmul dot_S256x2048_S2048x1_S256x1_1_0_0_1_n_n none A B (constant (F := Ideal) S256x1 .f32 0x00000000#32) (ix2 p o)
      = ∑ k : Fin 2048, A (ix2 p k) * B (ix2 k o) :=
  Cert.LibPlainMatmul.matmul_zero_apply dot_S256x2048_S2048x1_S256x1_1_0_0_1_n_n none rfl rfl lhsC_0 lhsC_1 rhsC_0 rhsC_1 A B p o

/-! ## Layout operations and lane sums, read at an entry -/

section Layout
variable {α : Type}

/-- A vector of length a viewed as a column [a, 1] reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- One number broadcast to a matrix reads that number everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Layout

/-- The sum along each row of a matrix: at row p, the sum over the columns. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext c
  refine Fin.ext ?_
  match c with
  | ⟨0, _⟩ => rfl
  | ⟨1, _⟩ => rfl

/-- The sum down a column [a, 1]: the sum over the rows. -/
theorem colSum_apply {a : ℕ} (src : FVec Ideal ⟨2, ![a, 1]⟩ .f32) (h : (⟨2, ![a, 1]⟩ : Shape).Reduces [0] ⟨1, ![1]⟩)
    (hφ : FKind.Formats .f32) (hacc : (0x00000000#32 : BitVec (FTy.bits .f32)) = FKind.add.neutral .f32 hφ) (u : Fin 1) :
    multiReduction (F := Ideal) .add [0] ⟨1, ![1]⟩ src 0x00000000#32 h hφ hacc (ix1 u) = ∑ p : Fin a, src (ix2 p u) := by
  refine (Ideal.multiReduction_add_single src 0x00000000#32 h hφ hacc (ix1 u)).trans ?_
  refine Finset.sum_congr rfl fun k _ => congrArg src ?_
  funext c
  refine Fin.ext ?_
  match c with
  | ⟨0, _⟩ => rfl
  | ⟨1, _⟩ => rfl

/-! ## The hidden matrices and the translations -/

/-- The first hidden matrix at (p, j): the first encoder applied to row p of the first features. -/
theorem pay3_apply (x0 : Vec Ideal S256x1024 .f32) (x3 : Vec Ideal S1024x2048 .bf16) (x4 : Vec Ideal S1x2048 .f32)
    (p : Fin 256) (j : Fin 2048) :
    k0_pay3 (F := Ideal) x0 x3 x4 (ix2 p j)
      = Cert.Loss.enc (fun k j => x3 (ix2 k j)) (fun j => x4 (ix2 0 j)) (fun k => x0 (ix2 p k)) j := by
  unfold k0_pay3 Cert.Loss.enc
  refine (addf_apply _ _ _).trans ?_
  refine congrArg₂ (· + ·) ?_ ?_
  · rw [shapeCast_self]
    exact matmulA_apply _ _ p j
  · rw [shapeCast_self]
    exact broadcastTo_1b_ab_apply _ _ p j

/-- The second hidden matrix at (p, j): the second encoder applied to row p of the second features. -/
theorem pay4_apply (x1 : Vec Ideal S256x1024 .f32) (x5 : Vec Ideal S1024x2048 .bf16) (x6 : Vec Ideal S1x2048 .f32)
    (p : Fin 256) (j : Fin 2048) :
    k0_pay4 (F := Ideal) x1 x5 x6 (ix2 p j)
      = Cert.Loss.enc (fun k j => x5 (ix2 k j)) (fun j => x6 (ix2 0 j)) (fun k => x1 (ix2 p k)) j := by
  unfold k0_pay4 Cert.Loss.enc
  refine (addf_apply _ _ _).trans ?_
  refine congrArg₂ (· + ·) ?_ ?_
  · rw [shapeCast_self]
    exact matmulA_apply _ _ p j
  · rw [shapeCast_self]
    exact broadcastTo_1b_ab_apply _ _ p j

/-- The copy of the second hidden matrix in the narrower format is the same matrix. -/
theorem pay5_apply (x1 : Vec Ideal S256x1024 .f32) (x5 : Vec Ideal S1024x2048 .bf16) (x6 : Vec Ideal S1x2048 .f32)
    (i : S256x2048.Idx) : k0_pay5 (F := Ideal) x1 x5 x6 i = k0_pay4 (F := Ideal) x1 x5 x6 i := rfl

/-- A hidden matrix times a decoder's weights plus its bias row, at (p, j): the decoder applied to row p. -/
theorem decode_apply (v : FVec Ideal S256x2048 .bf16) (u : FVec Ideal S2048x1024 .bf16) (e : FVec Ideal S1x1024 .f32)
    (hu : S2048x1024.ShapeCasts S2048x1024) (he : S1x1024.ShapeCasts S1x1024) (hb : S1x1024.Broadcasts S256x1024)
    (p : Fin 256) (j : Fin 1024) :
    addf (matmul dot_S256x2048_S2048x1024_S256x1024_1_0_0_1_n_n none v (shapeCast S2048x1024 u hu)
        (constant (F := Ideal) S256x1024 .f32 0x00000000#32)) (broadcastTo S256x1024 (shapeCast S1x1024 e he) hb) (ix2 p j)
      = Cert.Loss.dec (fun k j => u (ix2 k j)) (fun j => e (ix2 0 j)) (fun k => v (ix2 p k)) j := by
  unfold Cert.Loss.dec
  refine (addf_apply _ _ _).trans ?_
  refine congrArg₂ (· + ·) ?_ ?_
  · rw [shapeCast_self]
    exact matmulB_apply _ _ p j
  · rw [shapeCast_self]
    exact broadcastTo_1b_ab_apply _ _ p j

/-- The translation of the first features into the second space, at (p, j). -/
theorem pay6_apply (x0 : Vec Ideal S256x1024 .f32) (x3 : Vec Ideal S1024x2048 .bf16) (x4 : Vec Ideal S1x2048 .f32)
    (x9 : Vec Ideal S2048x1024 .bf16) (x10 : Vec Ideal S1x1024 .f32) (p : Fin 256) (j : Fin 1024) :
    k0_pay6 (F := Ideal) x0 x3 x4 x9 x10 (ix2 p j)
      = Cert.Loss.dec (fun k j => x9 (ix2 k j)) (fun j => x10 (ix2 0 j)) (fun k => k0_pay3 (F := Ideal) x0 x3 x4 (ix2 p k)) j := by
  unfold k0_pay6
  exact decode_apply _ x9 x10 _ _ _ p j

/-! ## Sums of squares -/

/-- For a matrix d of 256 rows: square the entries, add along each row, square each row's sum, add the 256 squares. -/
theorem sumSq_apply {b : ℕ} (d : FVec Ideal ⟨2, ![256, b]⟩ .f32)
    (hr : (⟨2, ![256, b]⟩ : Shape).Reduces [1] ⟨1, ![256]⟩) (hc : (⟨1, ![256]⟩ : Shape).ShapeCasts ⟨2, ![256, 1]⟩)
    (hr' : (⟨2, ![256, 1]⟩ : Shape).Reduces [0] ⟨1, ![1]⟩) (hc' : (⟨1, ![1]⟩ : Shape).ShapeCasts ⟨2, ![1, 1]⟩)
    (hφ : FKind.Formats .f32) (hacc : (0x00000000#32 : BitVec (FTy.bits .f32)) = FKind.add.neutral .f32 hφ) :
    shapeCast ⟨2, ![1, 1]⟩
        (multiReduction (F := Ideal) .add [0] ⟨1, ![1]⟩
          (mulf (shapeCast ⟨2, ![256, 1]⟩ (multiReduction (F := Ideal) .add [1] ⟨1, ![256]⟩ (mulf d d) 0x00000000#32 hr hφ hacc) hc)
            (shapeCast ⟨2, ![256, 1]⟩ (multiReduction (F := Ideal) .add [1] ⟨1, ![256]⟩ (mulf d d) 0x00000000#32 hr hφ hacc) hc))
          0x00000000#32 hr' hφ hacc) hc' (ix2 0 0)
      = ∑ p : Fin 256, (∑ k : Fin b, d (ix2 p k) * d (ix2 p k)) * (∑ k : Fin b, d (ix2 p k) * d (ix2 p k)) := by
  refine (shapeCast_a_1a_apply _ hc' 0 0).trans ?_
  refine (colSum_apply _ hr' hφ hacc 0).trans ?_
  refine Finset.sum_congr rfl fun p _ => ?_
  refine (mulf_apply _ _ _).trans ?_
  have e : shapeCast ⟨2, ![256, 1]⟩ (multiReduction (F := Ideal) .add [1] ⟨1, ![256]⟩ (mulf d d) 0x00000000#32 hr hφ hacc) hc (ix2 p 0)
      = ∑ k : Fin b, d (ix2 p k) * d (ix2 p k) :=
    (shapeCast_a_a1_apply _ hc p 0).trans (rowSum_apply (mulf d d) hr hφ hacc p)
  rw [e]

/-- The first term's squares: over the rows, the square of the squared distance between a row's translation and the row
    of the second features. -/
theorem pay7_apply (x1 : Vec Ideal S256x1024 .f32) (v30 : FVec Ideal S256x1024 .f32) :
    k0_pay7 (F := Ideal) x1 v30 (ix2 0 0)
      = ∑ p : Fin 256, (∑ k : Fin 1024, (v30 (ix2 p k) - x1 (ix2 p k)) * (v30 (ix2 p k) - x1 (ix2 p k)))
          * (∑ k : Fin 1024, (v30 (ix2 p k) - x1 (ix2 p k)) * (v30 (ix2 p k) - x1 (ix2 p k))) := by
  unfold k0_pay7
  exact sumSq_apply (subf v30 x1) _ _ _ _ _ _

/-- The second term's squares: the same with the second hidden matrix sent back into the first space. -/
theorem pay8_apply (x0 : Vec Ideal S256x1024 .f32) (v23 : FVec Ideal S256x2048 .bf16) (x7 : Vec Ideal S2048x1024 .bf16)
    (x8 : Vec Ideal S1x1024 .f32) :
    k0_pay8 (F := Ideal) x0 v23 x7 x8 (ix2 0 0)
      = ∑ p : Fin 256,
          (∑ j : Fin 1024, (Cert.Loss.dec (fun k j => x7 (ix2 k j)) (fun j => x8 (ix2 0 j)) (fun k => v23 (ix2 p k)) j - x0 (ix2 p j))
              * (Cert.Loss.dec (fun k j => x7 (ix2 k j)) (fun j => x8 (ix2 0 j)) (fun k => v23 (ix2 p k)) j - x0 (ix2 p j)))
          * (∑ j : Fin 1024, (Cert.Loss.dec (fun k j => x7 (ix2 k j)) (fun j => x8 (ix2 0 j)) (fun k => v23 (ix2 p k)) j - x0 (ix2 p j))
              * (Cert.Loss.dec (fun k j => x7 (ix2 k j)) (fun j => x8 (ix2 0 j)) (fun k => v23 (ix2 p k)) j - x0 (ix2 p j))) := by
  unfold k0_pay8
  refine (sumSq_apply (subf _ x0) _ _ _ _ _ _).trans ?_
  refine Finset.sum_congr rfl fun p _ => ?_
  have e : ∀ j : Fin 1024,
      subf (addf (matmul dot_S256x2048_S2048x1024_S256x1024_1_0_0_1_n_n none v23 (shapeCast S2048x1024 (x7 : FVec Ideal S2048x1024 .bf16) shapeCasts_S2048x1024_S2048x1024)
          (constant (F := Ideal) S256x1024 .f32 0x00000000#32)) (broadcastTo S256x1024 (shapeCast S1x1024 (x8 : FVec Ideal S1x1024 .f32) shapeCasts_S1x1024_S1x1024) broadcasts_S1x1024_S256x1024)) x0 (ix2 p j)
        = Cert.Loss.dec (fun k j => x7 (ix2 k j)) (fun j => x8 (ix2 0 j)) (fun k => v23 (ix2 p k)) j - x0 (ix2 p j) := fun j =>
    (subf_apply _ _ _).trans (congrArg (· - x0 (ix2 p j)) (decode_apply v23 x7 x8 _ _ _ p j))
  simp only [e]

/-- The third term's squares: over the rows, the square of the squared distance between the two hidden rows. -/
theorem pay9_apply (v14 v21 : FVec Ideal S256x2048 .f32) :
    k0_pay9 (F := Ideal) v14 v21 (ix2 0 0)
      = ∑ p : Fin 256, (∑ k : Fin 2048, (v14 (ix2 p k) - v21 (ix2 p k)) * (v14 (ix2 p k) - v21 (ix2 p k)))
          * (∑ k : Fin 2048, (v14 (ix2 p k) - v21 (ix2 p k)) * (v14 (ix2 p k) - v21 (ix2 p k))) := by
  unfold k0_pay9
  exact sumSq_apply (subf v14 v21) _ _ _ _ _ _

/-- The fourth term's squares: over the rows, the square of the halved response of the output unit to the sum of the two
    hidden rows, plus the halved bias, less the row's target. -/
theorem pay10_apply (x2 : Vec Ideal S256x1 .f32) (v14 v21 : FVec Ideal S256x2048 .f32) (x11 : Vec Ideal S2048x1 .bf16)
    (x12 : Vec Ideal S1x1 .f32) :
    k0_pay10 (F := Ideal) x2 v14 v21 x11 x12 (ix1 0)
      = ∑ p : Fin 256,
          (((∑ k : Fin 2048, (v14 (ix2 p k) + v21 (ix2 p k)) * x11 (ix2 k 0)) * Cert.Loss.half + x12 (ix2 0 0) * Cert.Loss.half)
              - x2 (ix2 p 0))
          * (((∑ k : Fin 2048, (v14 (ix2 p k) + v21 (ix2 p k)) * x11 (ix2 k 0)) * Cert.Loss.half + x12 (ix2 0 0) * Cert.Loss.half)
              - x2 (ix2 p 0)) := by
  unfold k0_pay10
  refine (colSum_apply _ _ _ _ 0).trans ?_
  refine Finset.sum_congr rfl fun p _ => ?_
  refine (mulf_apply _ _ _).trans ?_
  refine congrArg₂ (· * ·) ?_ ?_ <;>
  · refine (subf_apply _ _ _).trans ?_
    refine congrArg (· - x2 (ix2 p 0)) ?_
    refine (addf_apply _ _ _).trans ?_
    refine congrArg₂ (· + ·) ?_ ?_
    · refine (mulf_apply _ _ _).trans ?_
      refine congrArg₂ (· * ·) ?_ rfl
      rw [shapeCast_self]
      exact matmulC_apply _ _ p 0
    · refine (broadcastTo_1b_ab_apply _ _ p 0).trans ?_
      refine (mulf_apply _ _ _).trans ?_
      rw [shapeCast_self]
      rfl

/-- The stored block at (r, l): the old entry plus the four numbers added in the body's order. -/
theorem pay1_apply (v66 v69 v72 : FVec Ideal S1x1 .f32) (v74 : FVec Ideal S1 .f32) (acc : Vec Ideal S8x128 .f32)
    (r : Fin 8) (l : Fin 128) :
    k0_pay1 (F := Ideal) v66 v69 v72 v74 acc (ix2 r l)
      = acc (ix2 r l) + (((v66 (ix2 0 0) + v69 (ix2 0 0)) + v72 (ix2 0 0)) + v74 (ix1 0)) := by
  unfold k0_pay1
  refine (congrFun (shapeCast_self _ _) _).trans ?_
  refine (addf_apply _ _ _).trans ?_
  refine congrArg (acc (ix2 r l) + ·) ?_
  refine (broadcastTo_11_ab_apply _ _ r l).trans ?_
  refine (congrFun (shapeCast_self _ _) _).trans ?_
  refine (addf_apply _ _ _).trans ?_
  refine congrArg₂ (· + ·) rfl ?_
  exact shapeCast_a_1a_apply _ _ 0 0

/-- The block a core's first grid point stores before accumulating: zero everywhere. -/
theorem reset_apply (i : S8x128.Idx) : k0_pay2 (F := Ideal) i = 0 := by
  unfold k0_pay2
  refine (congrFun (shapeCast_self _ _) i).trans ?_
  exact Ideal.ofBits_zero_f32

/-! ## The four numbers as the loss names them

With the weights read off the thirteen blocks, each of the four numbers is the sum over the tile's rows of one term of the
loss, squared. Row p of the tile is the pair of functions k ↦ x0 (p, k) and k ↦ x1 (p, k), and its target is x2 (p, 0). -/

theorem t1_sum (x0 x1 : Vec Ideal S256x1024 .f32) (x3 : Vec Ideal S1024x2048 .bf16)
    (x4 : Vec Ideal S1x2048 .f32) (x5 : Vec Ideal S1024x2048 .bf16) (x6 : Vec Ideal S1x2048 .f32) (x7 : Vec Ideal S2048x1024 .bf16)
    (x8 : Vec Ideal S1x1024 .f32) (x9 : Vec Ideal S2048x1024 .bf16) (x10 : Vec Ideal S1x1024 .f32) (x11 : Vec Ideal S2048x1 .bf16)
    (x12 : Vec Ideal S1x1 .f32) :
    k0_pay7 (F := Ideal) x1 (k0_pay6 x0 x3 x4 x9 x10) (ix2 0 0)
      = ∑ p : Fin 256, Cert.Loss.t1 (Cert.Loss.paramsOfBlocks x3 x4 x5 x6 x7 x8 x9 x10 x11 x12) (fun k => x0 (ix2 p k)) (fun k => x1 (ix2 p k))
          * Cert.Loss.t1 (Cert.Loss.paramsOfBlocks x3 x4 x5 x6 x7 x8 x9 x10 x11 x12) (fun k => x0 (ix2 p k)) (fun k => x1 (ix2 p k)) := by
  refine (pay7_apply x1 _).trans ?_
  refine Finset.sum_congr rfl fun p _ => ?_
  have e : (∑ k : Fin 1024, (k0_pay6 (F := Ideal) x0 x3 x4 x9 x10 (ix2 p k) - x1 (ix2 p k))
        * (k0_pay6 (F := Ideal) x0 x3 x4 x9 x10 (ix2 p k) - x1 (ix2 p k)))
      = Cert.Loss.t1 (Cert.Loss.paramsOfBlocks x3 x4 x5 x6 x7 x8 x9 x10 x11 x12) (fun k => x0 (ix2 p k)) (fun k => x1 (ix2 p k)) := by
    unfold Cert.Loss.t1 Cert.Loss.sqdist Cert.Loss.h1
    refine Finset.sum_congr rfl fun j _ => ?_
    rw [pay6_apply]
    simp only [pay3_apply]
    rfl
  rw [e]

theorem t2_sum (x0 x1 : Vec Ideal S256x1024 .f32) (x3 : Vec Ideal S1024x2048 .bf16)
    (x4 : Vec Ideal S1x2048 .f32) (x5 : Vec Ideal S1024x2048 .bf16) (x6 : Vec Ideal S1x2048 .f32) (x7 : Vec Ideal S2048x1024 .bf16)
    (x8 : Vec Ideal S1x1024 .f32) (x9 : Vec Ideal S2048x1024 .bf16) (x10 : Vec Ideal S1x1024 .f32) (x11 : Vec Ideal S2048x1 .bf16)
    (x12 : Vec Ideal S1x1 .f32) :
    k0_pay8 (F := Ideal) x0 (k0_pay5 x1 x5 x6) x7 x8 (ix2 0 0)
      = ∑ p : Fin 256, Cert.Loss.t2 (Cert.Loss.paramsOfBlocks x3 x4 x5 x6 x7 x8 x9 x10 x11 x12) (fun k => x0 (ix2 p k)) (fun k => x1 (ix2 p k))
          * Cert.Loss.t2 (Cert.Loss.paramsOfBlocks x3 x4 x5 x6 x7 x8 x9 x10 x11 x12) (fun k => x0 (ix2 p k)) (fun k => x1 (ix2 p k)) := by
  refine (pay8_apply x0 _ x7 x8).trans ?_
  refine Finset.sum_congr rfl fun p _ => ?_
  have e : (∑ j : Fin 1024,
        (Cert.Loss.dec (fun k j => x7 (ix2 k j)) (fun j => x8 (ix2 0 j)) (fun k => k0_pay5 (F := Ideal) x1 x5 x6 (ix2 p k)) j - x0 (ix2 p j))
          * (Cert.Loss.dec (fun k j => x7 (ix2 k j)) (fun j => x8 (ix2 0 j)) (fun k => k0_pay5 (F := Ideal) x1 x5 x6 (ix2 p k)) j - x0 (ix2 p j)))
      = Cert.Loss.t2 (Cert.Loss.paramsOfBlocks x3 x4 x5 x6 x7 x8 x9 x10 x11 x12) (fun k => x0 (ix2 p k)) (fun k => x1 (ix2 p k)) := by
    unfold Cert.Loss.t2 Cert.Loss.sqdist Cert.Loss.h2
    refine Finset.sum_congr rfl fun j _ => ?_
    simp only [pay5_apply, pay4_apply]
    rfl
  rw [e]

theorem t3_sum (x0 x1 : Vec Ideal S256x1024 .f32) (x3 : Vec Ideal S1024x2048 .bf16)
    (x4 : Vec Ideal S1x2048 .f32) (x5 : Vec Ideal S1024x2048 .bf16) (x6 : Vec Ideal S1x2048 .f32) (x7 : Vec Ideal S2048x1024 .bf16)
    (x8 : Vec Ideal S1x1024 .f32) (x9 : Vec Ideal S2048x1024 .bf16) (x10 : Vec Ideal S1x1024 .f32) (x11 : Vec Ideal S2048x1 .bf16)
    (x12 : Vec Ideal S1x1 .f32) :
    k0_pay9 (F := Ideal) (k0_pay3 x0 x3 x4) (k0_pay4 x1 x5 x6) (ix2 0 0)
      = ∑ p : Fin 256, Cert.Loss.t3 (Cert.Loss.paramsOfBlocks x3 x4 x5 x6 x7 x8 x9 x10 x11 x12) (fun k => x0 (ix2 p k)) (fun k => x1 (ix2 p k))
          * Cert.Loss.t3 (Cert.Loss.paramsOfBlocks x3 x4 x5 x6 x7 x8 x9 x10 x11 x12) (fun k => x0 (ix2 p k)) (fun k => x1 (ix2 p k)) := by
  refine (pay9_apply _ _).trans ?_
  refine Finset.sum_congr rfl fun p _ => ?_
  have e : (∑ k : Fin 2048, (k0_pay3 (F := Ideal) x0 x3 x4 (ix2 p k) - k0_pay4 (F := Ideal) x1 x5 x6 (ix2 p k))
        * (k0_pay3 (F := Ideal) x0 x3 x4 (ix2 p k) - k0_pay4 (F := Ideal) x1 x5 x6 (ix2 p k)))
      = Cert.Loss.t3 (Cert.Loss.paramsOfBlocks x3 x4 x5 x6 x7 x8 x9 x10 x11 x12) (fun k => x0 (ix2 p k)) (fun k => x1 (ix2 p k)) := by
    unfold Cert.Loss.t3 Cert.Loss.sqdist Cert.Loss.h1 Cert.Loss.h2
    refine Finset.sum_congr rfl fun j _ => ?_
    rw [pay3_apply, pay4_apply]
    rfl
  rw [e]

theorem t4_sum (x0 x1 : Vec Ideal S256x1024 .f32) (x2 : Vec Ideal S256x1 .f32) (x3 : Vec Ideal S1024x2048 .bf16)
    (x4 : Vec Ideal S1x2048 .f32) (x5 : Vec Ideal S1024x2048 .bf16) (x6 : Vec Ideal S1x2048 .f32) (x7 : Vec Ideal S2048x1024 .bf16)
    (x8 : Vec Ideal S1x1024 .f32) (x9 : Vec Ideal S2048x1024 .bf16) (x10 : Vec Ideal S1x1024 .f32) (x11 : Vec Ideal S2048x1 .bf16)
    (x12 : Vec Ideal S1x1 .f32) :
    k0_pay10 (F := Ideal) x2 (k0_pay3 x0 x3 x4) (k0_pay4 x1 x5 x6) x11 x12 (ix1 0)
      = ∑ p : Fin 256, Cert.Loss.t4' (Cert.Loss.paramsOfBlocks x3 x4 x5 x6 x7 x8 x9 x10 x11 x12) (fun k => x0 (ix2 p k)) (fun k => x1 (ix2 p k)) (x2 (ix2 p 0))
          * Cert.Loss.t4' (Cert.Loss.paramsOfBlocks x3 x4 x5 x6 x7 x8 x9 x10 x11 x12) (fun k => x0 (ix2 p k)) (fun k => x1 (ix2 p k)) (x2 (ix2 p 0)) := by
  refine (pay10_apply x2 _ _ x11 x12).trans ?_
  refine Finset.sum_congr rfl fun p _ => ?_
  have e : ((∑ k : Fin 2048, (k0_pay3 (F := Ideal) x0 x3 x4 (ix2 p k) + k0_pay4 (F := Ideal) x1 x5 x6 (ix2 p k)) * x11 (ix2 k 0)) * Cert.Loss.half
        + x12 (ix2 0 0) * Cert.Loss.half) - x2 (ix2 p 0)
      = Cert.Loss.t4' (Cert.Loss.paramsOfBlocks x3 x4 x5 x6 x7 x8 x9 x10 x11 x12) (fun k => x0 (ix2 p k)) (fun k => x1 (ix2 p k)) (x2 (ix2 p 0)) := by
    unfold Cert.Loss.t4' Cert.Loss.resp Cert.Loss.h1 Cert.Loss.h2
    simp only [pay3_apply, pay4_apply]
    rfl
  rw [e]

/-! ## What the grid point stores -/

/-- At every entry of the accumulator block: the old entry plus the tile's sum of squares. -/
theorem stored_apply (x0 x1 : Vec Ideal S256x1024 .f32) (x2 : Vec Ideal S256x1 .f32) (x3 : Vec Ideal S1024x2048 .bf16)
    (x4 : Vec Ideal S1x2048 .f32) (x5 : Vec Ideal S1024x2048 .bf16) (x6 : Vec Ideal S1x2048 .f32) (x7 : Vec Ideal S2048x1024 .bf16)
    (x8 : Vec Ideal S1x1024 .f32) (x9 : Vec Ideal S2048x1024 .bf16) (x10 : Vec Ideal S1x1024 .f32) (x11 : Vec Ideal S2048x1 .bf16)
    (x12 : Vec Ideal S1x1 .f32) (acc : Vec Ideal S8x128 .f32) (r : Fin 8) (l : Fin 128) :
    k0_pay1 (F := Ideal) (k0_pay7 x1 (k0_pay6 x0 x3 x4 x9 x10)) (k0_pay8 x0 (k0_pay5 x1 x5 x6) x7 x8)
        (k0_pay9 (k0_pay3 x0 x3 x4) (k0_pay4 x1 x5 x6)) (k0_pay10 x2 (k0_pay3 x0 x3 x4) (k0_pay4 x1 x5 x6) x11 x12) acc (ix2 r l)
      = acc (ix2 r l) + Cert.Loss.blockSum (Cert.Loss.paramsOfBlocks x3 x4 x5 x6 x7 x8 x9 x10 x11 x12)
          (fun p k => x0 (ix2 p k)) (fun p k => x1 (ix2 p k)) (fun p => x2 (ix2 p 0)) := by
  refine (pay1_apply _ _ _ _ acc r l).trans ?_
  refine congrArg (acc (ix2 r l) + ·) ?_
  unfold Cert.Loss.blockSum
  exact congrArg₂ (· + ·)
    (congrArg₂ (· + ·)
      (congrArg₂ (· + ·) (t1_sum x0 x1 x3 x4 x5 x6 x7 x8 x9 x10 x11 x12) (t2_sum x0 x1 x3 x4 x5 x6 x7 x8 x9 x10 x11 x12))
      (t3_sum x0 x1 x3 x4 x5 x6 x7 x8 x9 x10 x11 x12))
    (t4_sum x0 x1 x2 x3 x4 x5 x6 x7 x8 x9 x10 x11 x12)

end Cert.KernelIdeal.Tile

end
-- ==== Proof.Accum.lean ====
/-
  The running total across the grid.

  The grid's 64 points run in order; point `t` holds tile `t` of the batch, rows `256·t … 256·t + 255`. The body resets
  its scratch at the points divisible by 32 and adds its tile's contribution at every point, so after point `n` the
  scratch, and the output block copied from it, hold in every lane the sum of the tiles' contributions since the last
  multiple of 32 (`outsAt_eq`, by induction on the point). What a tile contributes is `Cert.Loss.tile` of the weights,
  the two feature arrays by rows and the targets read off the program's arguments: the blocks the windows stage are rows
  of those arrays (`x1_rows`, `x2_rows`, `y_rows`) and the weight blocks are the arguments in another float format or
  another layout (`params_blocks`), both of which change nothing at the ideal values.
-/
import proofs.«134806_j13795434955464_1_alg».proof.Proof.Pieces
import proofs.«134806_j13795434955464_1_alg».proof.Proof.Blocks
import proofs.«134806_j13795434955464_1_alg».proof.Proof.Loss
import Mathlib.Algebra.BigOperators.Intervals
import proofs.«134806_j13795434955464_1_alg».proof.Proof.Tile

set_option maxRecDepth 16384

noncomputable section

open scoped BigOperators
open Finset
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen

/-! ## A running total that starts afresh every 32 steps -/

/-- The sum of `f` from the last multiple of 32 up to `n`. -/
def sinceReset (f : ℕ → EReal) (n : ℕ) : EReal := ∑ i ∈ range (n % 32 + 1), f (n / 32 * 32 + i)

theorem sinceReset_reset (f : ℕ → EReal) (n : ℕ) (h : n % 32 = 0) : sinceReset f n = f n := by
  unfold sinceReset
  rw [h, show n / 32 * 32 = n from by omega]
  simp

theorem sinceReset_step (f : ℕ → EReal) (n : ℕ) (h : ¬(n + 1) % 32 = 0) :
    sinceReset f (n + 1) = sinceReset f n + f (n + 1) := by
  unfold sinceReset
  rw [show (n + 1) % 32 + 1 = (n % 32 + 1) + 1 from by omega, show (n + 1) / 32 = n / 32 from by omega, sum_range_succ,
    show n / 32 * 32 + (n % 32 + 1) = n + 1 from by omega]

/-- At the last step before a reset it is the sum of the 32 steps since. -/
theorem sinceReset_last (f : ℕ → EReal) (n : ℕ) (h : n % 32 = 31) :
    sinceReset f n = ∑ i ∈ range 32, f (n / 32 * 32 + i) := by
  unfold sinceReset; rw [h]

/-! ## What every point's outputs are, at any float instance -/

section
variable {F : FTy → Type} [FloatOps F]
variable (m : (ℓ : Loc nD τ sig) → Buf (Elt F) ℓ)

/-- A point that resets leaves, in the output block and in the scratch, `stored` of its blocks over the reset block. -/
theorem point_reset (c : Dev nD) (t : Fin cfg0.N) (h0 : t.val % 32 = 0) :
    outsAt0 m c t.val t.isLt
      = (Pieces.stored (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) k0_pay2, Pieces.stored (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) k0_pay2) := by
  rw [outsAt0_A m c t h0]
  exact Prod.ext
    (Pieces.out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t))
    (Pieces.scratch_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t))

/-- Any other point leaves `stored` of its blocks over what the point before left in the scratch. -/
theorem point_step (c : Dev nD) (t : Fin cfg0.N) (h0 : ¬t.val % 32 = 0) :
    outsAt0 m c t.val t.isLt
      = (Pieces.stored (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2,
         Pieces.stored (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2) := by
  rw [outsAt0_B m c t h0]
  exact Prod.ext
    (Pieces.out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2)
    (Pieces.scratch_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2)

end

/-! ## At the ideal values: the running total of the tiles' contributions -/

variable (m : (ℓ : Loc nD τ sig) → Buf (Elt Ideal) ℓ)

/-- The weights, the two feature arrays by rows and the targets, as the mathematics reads them off the arguments. -/
abbrev params (c : Dev nD) : Cert.Loss.Params :=
  Cert.Loss.paramsOfArrays (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
abbrev X1 (c : Dev nD) : ℕ → Fin 1024 → EReal := Cert.Loss.rows (m ((c : Thread nD τ).loc main_arg0))
abbrev X2 (c : Dev nD) : ℕ → Fin 1024 → EReal := Cert.Loss.rows (m ((c : Thread nD τ).loc main_arg1))
abbrev Y (c : Dev nD) : ℕ → EReal := fun n => Cert.Loss.rows (m ((c : Thread nD τ).loc main_arg2)) n 0

/-- Tile `τ`'s contribution to the loss. -/
def tileAt (c : Dev nD) (τ : ℕ) : EReal := Cert.Loss.tile (params m c) (X1 m c) (X2 m c) (Y m c) τ

theorem x1_rows (c : Dev nD) (t : Fin cfg0.N) :
    (fun (p : Fin 256) (k : Fin 1024) => (iblk m c 0 t : Vec Ideal S256x1024 .f32) (ix2 p k)) = fun p => X1 m c (t.val * 256 + p.val) := by
  funext p k
  have hN : cfg0.N = 64 := N_0
  have ht := t.isLt
  have hp := p.isLt
  have hlt : t.val * 256 + p.val < 16384 := by omega
  rw [Blocks.block_0 m c t (ix2 p k) (ix2 ⟨t.val * 256 + p.val, hlt⟩ k) rfl rfl, V_main_arg0]
  exact (Cert.Loss.rows_of_lt _ _ hlt k).symm

theorem x2_rows (c : Dev nD) (t : Fin cfg0.N) :
    (fun (p : Fin 256) (k : Fin 1024) => (iblk m c 1 t : Vec Ideal S256x1024 .f32) (ix2 p k)) = fun p => X2 m c (t.val * 256 + p.val) := by
  funext p k
  have hN : cfg0.N = 64 := N_0
  have ht := t.isLt
  have hp := p.isLt
  have hlt : t.val * 256 + p.val < 16384 := by omega
  rw [Blocks.block_1 m c t (ix2 p k) (ix2 ⟨t.val * 256 + p.val, hlt⟩ k) rfl rfl, V_main_arg1]
  exact (Cert.Loss.rows_of_lt _ _ hlt k).symm

theorem y_rows (c : Dev nD) (t : Fin cfg0.N) :
    (fun (p : Fin 256) => (iblk m c 2 t : Vec Ideal S256x1 .f32) (ix2 p 0)) = fun p => Y m c (t.val * 256 + p.val) := by
  funext p
  have hN : cfg0.N = 64 := N_0
  have ht := t.isLt
  have hp := p.isLt
  have hlt : t.val * 256 + p.val < 16384 := by omega
  rw [Blocks.block_2 m c t (ix2 p 0) (ix2 ⟨t.val * 256 + p.val, hlt⟩ 0) rfl rfl, V_main_arg2]
  exact (Cert.Loss.rows_of_lt _ _ hlt 0).symm

/-- A one-row matrix made from a vector, read in its row. -/
theorem row_of_vec {n : ℕ} (v : (⟨1, ![n]⟩ : Shape).Idx → EReal) (h : (⟨1, ![n]⟩ : Shape).ShapeCasts ⟨2, ![1, n]⟩) (j : Fin n) :
    shapeCast ⟨2, ![1, n]⟩ v h (ix2 0 j) = v (ix1 j) :=
  (shapeCast_addUnit_apply ![n] v h (ix2 0 j)).trans (congrArg v (funext fun a => match a with | ⟨0, _⟩ => rfl))

/-- The weights the region finds in its windows are the arguments'. -/
theorem params_blocks (c : Dev nD) (t : Fin cfg0.N) :
    Cert.Loss.paramsOfBlocks (iblk m c 3 t : Vec Ideal S1024x2048 .bf16) (iblk m c 4 t : Vec Ideal S1x2048 .f32)
      (iblk m c 5 t : Vec Ideal S1024x2048 .bf16) (iblk m c 6 t : Vec Ideal S1x2048 .f32)
      (iblk m c 7 t : Vec Ideal S2048x1024 .bf16) (iblk m c 8 t : Vec Ideal S1x1024 .f32)
      (iblk m c 9 t : Vec Ideal S2048x1024 .bf16) (iblk m c 10 t : Vec Ideal S1x1024 .f32)
      (iblk m c 11 t : Vec Ideal S2048x1 .bf16) (iblk m c 12 t : Vec Ideal S1x1 .f32) = params m c := by
  rw [Blocks.block_3, Blocks.block_4, Blocks.block_5, Blocks.block_6, Blocks.block_7, Blocks.block_8, Blocks.block_9,
    Blocks.block_10, Blocks.block_11, Blocks.block_12, Blocks.V_main_v0, Blocks.V_main_v1, Blocks.V_main_v2, Blocks.V_main_v3,
    Blocks.V_main_v4, Blocks.V_main_v5, Blocks.V_main_v6, Blocks.V_main_v7, Blocks.V_main_v8, Blocks.V_main_v9]
  unfold params Cert.Loss.paramsOfBlocks Cert.Loss.paramsOfArrays
  congr 1
  · funext j; exact row_of_vec _ _ j
  · funext j; exact row_of_vec _ _ j
  · funext j; exact row_of_vec _ _ j
  · funext j; exact row_of_vec _ _ j
  · exact row_of_vec _ _ 0

/-- At any point, `stored` adds the point's tile to every lane. -/
theorem stored_at (c : Dev nD) (t : Fin cfg0.N) (a : Vec Ideal S8x128 .f32) (i : S8x128.Idx) :
    Pieces.stored (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a i = a i + tileAt m c t.val := by
  obtain ⟨r, l, rfl⟩ : ∃ (r : Fin 8) (l : Fin 128), i = ix2 r l := ⟨i 0, i 1, eq_ix2 i⟩
  refine (Cert.KernelIdeal.Tile.stored_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a r l).trans ?_
  refine congrArg (a (ix2 r l) + ·) ?_
  unfold tileAt Cert.Loss.tile
  rw [params_blocks m c t, x1_rows m c t, x2_rows m c t, y_rows m c t]

/-- After point `n` the output block and the scratch hold, in every lane, the tiles' contributions since the last reset. -/
theorem outsAt_eq (c : Dev nD) : ∀ (n : ℕ) (h : n < cfg0.N),
    outsAt0 m c n h = ((fun _ => sinceReset (tileAt m c) n), (fun _ => sinceReset (tileAt m c) n))
  | 0, h => by
    rw [point_reset m c ⟨0, h⟩ rfl]
    refine Prod.ext (funext fun i => ?_) (funext fun i => ?_) <;>
    · dsimp only
      rw [stored_at m c ⟨0, h⟩, Cert.KernelIdeal.Tile.reset_apply, zero_add, sinceReset_reset _ _ rfl]
  | n + 1, h => by
    by_cases h0 : (n + 1) % 32 = 0
    · rw [point_reset m c ⟨n + 1, h⟩ h0]
      refine Prod.ext (funext fun i => ?_) (funext fun i => ?_) <;>
      · dsimp only
        rw [stored_at m c ⟨n + 1, h⟩, Cert.KernelIdeal.Tile.reset_apply, zero_add, sinceReset_reset _ _ h0]
    · rw [point_step m c ⟨n + 1, h⟩ h0]
      have ih := outsAt_eq c n (Nat.lt_of_succ_lt h)
      refine Prod.ext (funext fun i => ?_) (funext fun i => ?_) <;>
      · dsimp only
        rw [stored_at m c ⟨n + 1, h⟩, sinceReset_step _ _ h0]
        show (outsAt0 m c n _).2 i + _ = _
        rw [ih]

end Cert.KernelIdeal.Accum

end
-- ==== Proof.Final.lean ====
/-
  From the running total to the program's result.

  The output array has one block of eight rows per half of the batch. A block is written back once, after the last of its
  half's 32 points, when it holds in every lane that half's 32 tiles (`flushed_eq`); the two blocks cover the array
  (`final`). After the region the host reads entry (0, 0) of each block and adds the two: the sum of all 64 tiles'
  contributions, which is the loss (`Cert.Loss.tiles_eq_total`). `run` states the whole program's run with that result.
-/
import proofs.«134806_j13795434955464_1_alg».proof.Proof.Accum
import Idealize.ShloMosaic.Lib.Pipeline.Value
import Idealize.ShloMosaic.Lib.StableHlo.Run
import Idealize.ShloMosaic.Lib.Tactic

set_option maxRecDepth 16384

noncomputable section

open scoped BigOperators
open Finset
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Accum

variable (m : (ℓ : Loc nD τ sig) → Buf (Elt Ideal) ℓ) (ρ : Dev nD → PrngReg)

/-- The output window's block index: the point's half of the batch along the rows, nothing along the lanes. -/
theorem index_13 : ∀ t : Fin cfg0.N, win0_13.index t 0 = t.val / 32 ∧ win0_13.index t 1 = 0 :=
  (by decide +kernel : ∀ t : Fin grid0.N, win0_13.index t 0 = t.val / 32 ∧ win0_13.index t 1 = 0)

/-- Its blocks are whole: eight rows of 128 lanes at every point. -/
theorem xsize_13 : ∀ t : Fin cfg0.N, win0_13.xsize (grid0.coords t) 0 = 8 ∧ win0_13.xsize (grid0.coords t) 1 = 128 :=
  (by decide +kernel : ∀ t : Fin grid0.N, win0_13.xsize (grid0.coords t) 0 = 8 ∧ win0_13.xsize (grid0.coords t) 1 = 128)

/-- The 32 tiles of half `g` of the batch. -/
def halfSum (c : Dev nD) (g : ℕ) : EReal := ∑ τ ∈ range 32, tileAt m c (g * 32 + τ)

/-- The output array after the region: rows `8·g … 8·g + 7` hold half `g`'s sum in every lane. -/
def outArr (c : Dev nD) : Buf (Elt Ideal) ((c : Thread nD τ).loc main_v10) :=
  fun (i : S16x128.Idx) => halfSum m c ((i 0).val / 8)

/-- A write-back happens after the last point of a half, and writes that half's sum into its block. -/
theorem flushed_eq (c : Dev nD) (t : Fin cfg0.N) (hf : (cfg0.win 13).flush t = true) :
    (dats m 0 c).flushed 13 t = ((cfg0.win 13).blk t).view.read (Elt Ideal) (outArr m c) := by
  have h31 : t.val % 32 = 31 := (flush0_13 t).mp hf
  show (cfg0.win 13).cut (grid0.coords t) ((dats m 0 c).after 13 t) = _
  rw [after0_13, outsAt_eq]
  funext y
  rw [View.read_apply]
  have hy : (y 0).val < win0_13.xsize (grid0.coords t) 0 := (y 0).isLt
  rw [(xsize_13 t).1] at hy
  show sinceReset (tileAt m c) t.val = halfSum m c ((win0_13.index t 0 * 8 + 1 * (y 0).val) / 8)
  rw [(index_13 t).1, show (t.val / 32 * 8 + 1 * (y 0).val) / 8 = t.val / 32 from by omega, sinceReset_last _ _ h31]
  rfl

/-- The two written blocks cover the array, so it ends as `outArr`. -/
theorem final (c : Dev nD) : (dats m 0 c).arrAt 13 cfg0.N = outArr m c :=
  (dats m 0 c).arrAt_eq_of_cover 13 (outArr m c) (flushed_eq m c) fun i => by
    have hN : cfg0.N = 64 := N_0
    have hi0 : (i 0 : Nat) < 16 := (i 0).isLt
    have hi1 : (i 1 : Nat) < 128 := (i 1).isLt
    have ht : (i 0 : Nat) / 8 * 32 + 31 < cfg0.N := by omega
    refine ⟨⟨(i 0 : Nat) / 8 * 32 + 31, ht⟩, (flush0_13 _).mpr (by dsimp only; omega), ?_⟩
    show i ∈ ((View.whole main_v10).slice (win0_13.rect ⟨(i 0 : Nat) / 8 * 32 + 31, ht⟩)).set
    rw [View.set_slice_whole, Rect.mem_set_unit]
    intro a
    match a with
    | ⟨0, _⟩ =>
      show win0_13.index _ 0 * win0_13.size 0 ≤ (i 0 : Nat) ∧ (i 0 : Nat) < win0_13.index _ 0 * win0_13.size 0 + win0_13.xsize (grid0.coords _) 0
      rw [(index_13 _).1, (xsize_13 _).1, show win0_13.size 0 = 8 from rfl]
      dsimp only
      omega
    | ⟨1, _⟩ =>
      show win0_13.index _ 1 * win0_13.size 1 ≤ (i 1 : Nat) ∧ (i 1 : Nat) < win0_13.index _ 1 * win0_13.size 1 + win0_13.xsize (grid0.coords _) 1
      rw [(index_13 _).2, (xsize_13 _).2, show win0_13.size 1 = 128 from rfl]
      omega

/-- A one-by-one matrix laid out as a scalar keeps its entry. -/
theorem scalar_of_11 (x : S1x1.Idx → EReal) (h : S1x1.ShapeCasts S_) (j : S_.Idx) : shapeCast S_ x h j = x (ix2 0 0) :=
  shapeCast_apply x h j (ix2 0 0) (by
    have n1 : S1x1.numel = 1 := by decide
    have n0 : S_.numel = 1 := by decide
    have h1 : (S1x1.rowMajor (ix2 0 0)).val < S1x1.numel := (S1x1.rowMajor (ix2 0 0)).isLt
    have h2 : (S_.rowMajor j).val < S_.numel := (S_.rowMajor j).isLt
    omega)

/-- The one-element slice at row `r`, lane 0. -/
theorem slice_at (A : S16x128.Idx → EReal) (off : Fin 2 → ℕ) (r : Fin 16) (hoff : off = ![r.val, 0])
    (h : S16x128.Slices off S1x1) : extractStridedSlice S1x1 off A h (ix2 0 0) = A (ix2 r 0) := by
  subst hoff
  exact extractStridedSlice_apply _ A h (ix2 0 0) (ix2 r 0) fun a => by
    match a with
    | ⟨0, _⟩ => show r.val = r.val + 0; omega
    | ⟨1, _⟩ => rfl

/-- What the host leaves in the result after the region: the two halves' sums added. -/
theorem tail_eq (c : Dev nD) :
    Pipeline.afterTail₀ cfgs (dats m) 0 (V0 m) [hostOps1] c main_v15 = fun _ => halfSum m c 0 + halfSum m c 1 := by
  unfold Pipeline.afterTail₀
  show StableHlo.after hostOps1 _ (Proc.devRef .tc main_v15) = _
  after_results
  have hw : Pipeline.withArrays (cfgs 0).spec c (V0 m c) (fun w => (dats m 0 c).arrAt w (cfgs 0).N) (Proc.devRef .tc main_v10)
      = outArr m c := (Pipeline.withArrays_arr spec0 launch0.win.arr_inj c _ _ 13).trans (final m c)
  rw [hw]
  funext j
  show (shapeCast S_ (extractStridedSlice S1x1 ![0, 0] (outArr m c) slices_S16x128_S1x1_0_0) shapeCasts_S1x1_S_ j : EReal)
      + shapeCast S_ (extractStridedSlice S1x1 ![8, 0] (outArr m c) slices_S16x128_S1x1_8_0) shapeCasts_S1x1_S_ j = _
  rw [scalar_of_11, scalar_of_11, slice_at (outArr m c) ![0, 0] 0 rfl, slice_at (outArr m c) ![8, 0] 8 rfl]
  rfl

/-- The two halves' sums are the loss. -/
theorem halves_eq_total (c : Dev nD) :
    halfSum m c 0 + halfSum m c 1 = Cert.Loss.total (params m c) (X1 m c) (X2 m c) (Y m c) := by
  unfold halfSum tileAt
  simp only [Nat.zero_mul, Nat.zero_add, Nat.one_mul]
  exact Cert.Loss.tiles_eq_total _ _ _ _

/-- The program's result, as a scalar buffer. -/
abbrev loss (c : Dev nD) : Buf (Elt Ideal) ((c.tc : Thread nD τ).loc main_v15) :=
  fun _ => Cert.Loss.total (params m c) (X1 m c) (X2 m c) (Y m c)

/-- Every weakly fair execution of the program terminates with the result at the loss and the arguments unchanged. -/
theorem run : θ_run defs (onTc (τ := τ) (main (F := Ideal))) ⟨m, fun _ => 0, ρ⟩ (fun r => ∀ c : Dev nD,
      r.2.mem ((c.tc : Thread nD τ).loc main_v15) = loss m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_v15 (Pipeline.mem_restRefs_of main_v15 (by decide) (by decide))).trans
        ((tail_eq m c).trans (funext fun _ => halves_eq_total m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c))⟩) (run_main m ρ)

end Cert.KernelIdeal.Final

end
-- ==== Proof.RefLoss.lean ====
/-
  The reference program, read as mathematics: its scalar result is the loss `Cert.Loss.total` of the weights and rows
  its thirteen arrays hold.

  The program is a chain of whole-array operations. Read at one element each is a finite sum or an arithmetic
  operation of extended reals, so the chain is followed row by row. For row `n` of the batch the two hidden vectors are
  the encoders applied to the row's feature vectors (`v3_row`, `v7_row`), the two translations are the decoders applied
  to those (`v11_row`, `v15_row`), the three row sums are squared distances (`v19_row`, `v23_row`, `v27_row`) and the
  last column is half the output unit's response to the sum of the hidden vectors, less the target (`v35_row`). Each
  row sum starts from the constant zero, which adds nothing. The four final sums run over the index set of a
  `16384 × 1` array; that set is the rows `0, …, 16383` with the one column `0`, so each is a sum over the naturals
  below 16384 (`sum_col`), which is how the loss is written.
-/
import proofs.«134806_j13795434955464_1_alg».proof.Proof.Gen.ReferenceIdeal.Read
import proofs.«134806_j13795434955464_1_alg».proof.Proof.Loss

noncomputable section

open scoped BigOperators
open Finset
open Idealize.ShloMosaic Idealize.ShloMosaic.ValueIdx
open Cert.ReferenceIdeal Cert.ReferenceIdeal.Read
open Cert.Loss (enc dec sqdist resp half rows paramsOfArrays)

namespace Cert.ReferenceIdeal.RefLoss

/-- The entries of a rank-two array by row and column; `mat A n` is row `n` as a vector. -/
abbrev mat {m n : ℕ} (A : (⟨2, ![m, n]⟩ : Shape).Idx → EReal) (a : Fin m) (b : Fin n) : EReal := A (ix2 a b)
/-- The entries of a rank-one array. -/
abbrev vec {n : ℕ} (A : (⟨1, ![n]⟩ : Shape).Idx → EReal) (a : Fin n) : EReal := A (ix1 a)

/-- Below 16384, row `n` of an array in the sense of the loss is its row `n`. -/
theorem rows_eq {K : ℕ} (A : (⟨2, ![16384, K]⟩ : Shape).Idx → EReal) (n : ℕ) (hn : n < 16384) :
    rows A n = mat A ⟨n, hn⟩ := funext (Cert.Loss.rows_of_lt A n hn)

/-- A sum over the index set of a `16384 × 1` array is the sum over its rows, the column being `0`. -/
theorem sum_col (f : (⟨2, ![16384, 1]⟩ : Shape).Idx → EReal) (g : ℕ → EReal)
    (h : ∀ (n : ℕ) (hn : n < 16384), f (ix2 ⟨n, hn⟩ 0) = g n) :
    ∑ j, f j = ∑ n ∈ range 16384, g n := by
  rw [sum_idx2, Finset.sum_range]
  refine Finset.sum_congr rfl fun a _ => ?_
  rw [Fin.sum_univ_one]
  exact h a.val a.isLt

section Rows

variable (x0 x1 : (⟨S16384x1024, .f32⟩ : BufTy).Contents (Elt Ideal)) (x2 : (⟨S16384x1, .f32⟩ : BufTy).Contents (Elt Ideal))
  (x3 : (⟨S1024x2048, .f32⟩ : BufTy).Contents (Elt Ideal)) (x4 : (⟨S2048, .f32⟩ : BufTy).Contents (Elt Ideal))
  (x5 : (⟨S1024x2048, .f32⟩ : BufTy).Contents (Elt Ideal)) (x6 : (⟨S2048, .f32⟩ : BufTy).Contents (Elt Ideal))
  (x7 : (⟨S2048x1024, .f32⟩ : BufTy).Contents (Elt Ideal)) (x8 : (⟨S1024, .f32⟩ : BufTy).Contents (Elt Ideal))
  (x9 : (⟨S2048x1024, .f32⟩ : BufTy).Contents (Elt Ideal)) (x10 : (⟨S1024, .f32⟩ : BufTy).Contents (Elt Ideal))
  (x11 : (⟨S2048x1, .f32⟩ : BufTy).Contents (Elt Ideal)) (x12 : (⟨S1, .f32⟩ : BufTy).Contents (Elt Ideal))

/-! ## Where each operation reads its operands, by coordinates

A product of matrices at `(n, j)` reads row `n` of its left factor and column `j` of its right one; a bias added to
every row is read at the column; a row sum at `n` reads row `n`; a vector made a column is read at the row. -/

theorem lidx_v0 (n : Fin 16384) (j : Fin 2048) (k : Fin 1024) : lidx_main_v0 (ix2 n j) k = ix2 n k := by
  funext a; match a with | ⟨0, _⟩ => rfl | ⟨1, _⟩ => rfl
theorem ridx_v0 (n : Fin 16384) (j : Fin 2048) (k : Fin 1024) : ridx_main_v0 (ix2 n j) k = ix2 k j := by
  funext a; match a with | ⟨0, _⟩ => rfl | ⟨1, _⟩ => rfl
theorem idx_v2 (n : Fin 16384) (j : Fin 2048) : idx_main_v1 (idx_main_v2 (ix2 n j)) = ix1 j := by
  funext a; match a with | ⟨0, _⟩ => rfl
theorem lidx_v4 (n : Fin 16384) (j : Fin 2048) (k : Fin 1024) : lidx_main_v4 (ix2 n j) k = ix2 n k := by
  funext a; match a with | ⟨0, _⟩ => rfl | ⟨1, _⟩ => rfl
theorem ridx_v4 (n : Fin 16384) (j : Fin 2048) (k : Fin 1024) : ridx_main_v4 (ix2 n j) k = ix2 k j := by
  funext a; match a with | ⟨0, _⟩ => rfl | ⟨1, _⟩ => rfl
theorem idx_v6 (n : Fin 16384) (j : Fin 2048) : idx_main_v5 (idx_main_v6 (ix2 n j)) = ix1 j := by
  funext a; match a with | ⟨0, _⟩ => rfl
theorem lidx_v8 (n : Fin 16384) (j : Fin 1024) (k : Fin 2048) : lidx_main_v8 (ix2 n j) k = ix2 n k := by
  funext a; match a with | ⟨0, _⟩ => rfl | ⟨1, _⟩ => rfl
theorem ridx_v8 (n : Fin 16384) (j : Fin 1024) (k : Fin 2048) : ridx_main_v8 (ix2 n j) k = ix2 k j := by
  funext a; match a with | ⟨0, _⟩ => rfl | ⟨1, _⟩ => rfl
theorem idx_v10 (n : Fin 16384) (j : Fin 1024) : idx_main_v9 (idx_main_v10 (ix2 n j)) = ix1 j := by
  funext a; match a with | ⟨0, _⟩ => rfl
theorem lidx_v12 (n : Fin 16384) (j : Fin 1024) (k : Fin 2048) : lidx_main_v12 (ix2 n j) k = ix2 n k := by
  funext a; match a with | ⟨0, _⟩ => rfl | ⟨1, _⟩ => rfl
theorem ridx_v12 (n : Fin 16384) (j : Fin 1024) (k : Fin 2048) : ridx_main_v12 (ix2 n j) k = ix2 k j := by
  funext a; match a with | ⟨0, _⟩ => rfl | ⟨1, _⟩ => rfl
theorem idx_v14 (n : Fin 16384) (j : Fin 1024) : idx_main_v13 (idx_main_v14 (ix2 n j)) = ix1 j := by
  funext a; match a with | ⟨0, _⟩ => rfl
theorem idx_v18 (n : Fin 16384) (b : Fin 1) (k : Fin 1024) : idx_main_v18 (idx_main_v19 (ix2 n b)) k = ix2 n k := by
  funext a; match a with | ⟨0, _⟩ => rfl | ⟨1, _⟩ => rfl
theorem idx_v22 (n : Fin 16384) (b : Fin 1) (k : Fin 1024) : idx_main_v22 (idx_main_v23 (ix2 n b)) k = ix2 n k := by
  funext a; match a with | ⟨0, _⟩ => rfl | ⟨1, _⟩ => rfl
theorem idx_v26 (n : Fin 16384) (b : Fin 1) (k : Fin 2048) : idx_main_v26 (idx_main_v27 (ix2 n b)) k = ix2 n k := by
  funext a; match a with | ⟨0, _⟩ => rfl | ⟨1, _⟩ => rfl
theorem lidx_v29 (n : Fin 16384) (b : Fin 1) (k : Fin 2048) : lidx_main_v29 (ix2 n b) k = ix2 n k := by
  funext a; match a with | ⟨0, _⟩ => rfl | ⟨1, _⟩ => rfl
theorem ridx_v29 (n : Fin 16384) (b : Fin 1) (k : Fin 2048) : ridx_main_v29 (ix2 n b) k = ix2 k b := by
  funext a; match a with | ⟨0, _⟩ => rfl | ⟨1, _⟩ => rfl
theorem idx_v31 (i : S16384x1.Idx) : idx_main_v30 (idx_main_v31 i) = ix1 0 := by
  funext a; match a with | ⟨0, _⟩ => rfl

/-! ## The stages, row by row -/

/-- The first hidden vector of row `n`: the first encoder applied to the row of the first feature array. -/
theorem v3_row (n : Fin 16384) (j : Fin 2048) :
    val_main_v3 (F := Ideal) x0 x3 x4 (ix2 n j) = enc (mat x3) (vec x4) (mat x0 n) j := by
  rw [val_main_v3_apply, val_main_v0_apply, val_main_v2_apply, val_main_v1_apply, Ideal.addf_def]
  simp only [lidx_v0, ridx_v0, idx_v2]
  rfl

/-- The second hidden vector of row `n`: the second encoder applied to the row of the second feature array. -/
theorem v7_row (n : Fin 16384) (j : Fin 2048) :
    val_main_v7 (F := Ideal) x1 x5 x6 (ix2 n j) = enc (mat x5) (vec x6) (mat x1 n) j := by
  rw [val_main_v7_apply, val_main_v4_apply, val_main_v6_apply, val_main_v5_apply, Ideal.addf_def]
  simp only [lidx_v4, ridx_v4, idx_v6]
  rfl

/-- The translation of row `n` into the second feature space: the decoder applied to the first hidden vector. -/
theorem v11_row (n : Fin 16384) (j : Fin 1024) :
    val_main_v11 (F := Ideal) x0 x3 x4 x9 x10 (ix2 n j)
      = dec (mat x9) (vec x10) (enc (mat x3) (vec x4) (mat x0 n)) j := by
  rw [val_main_v11_apply, val_main_v8_apply, val_main_v10_apply, val_main_v9_apply, Ideal.addf_def]
  simp only [lidx_v8, ridx_v8, idx_v10, v3_row]
  rfl

/-- The translation of row `n` into the first feature space: the decoder applied to the second hidden vector. -/
theorem v15_row (n : Fin 16384) (j : Fin 1024) :
    val_main_v15 (F := Ideal) x1 x5 x6 x7 x8 (ix2 n j)
      = dec (mat x7) (vec x8) (enc (mat x5) (vec x6) (mat x1 n)) j := by
  rw [val_main_v15_apply, val_main_v12_apply, val_main_v14_apply, val_main_v13_apply, Ideal.addf_def]
  simp only [lidx_v12, ridx_v12, idx_v14, v7_row]
  rfl

/-- Row `n`'s first term: the squared distance from its translation into the second space to its second feature
    vector. The sum's initial value is the constant zero. -/
theorem v19_row (n : Fin 16384) (b : Fin 1) :
    val_main_v19 (F := Ideal) x0 x1 x3 x4 x9 x10 (ix2 n b)
      = sqdist (dec (mat x9) (vec x10) (enc (mat x3) (vec x4) (mat x0 n))) (mat x1 n) := by
  rw [val_main_v19_apply, val_main_v18_apply, val_main_cst_apply, Ideal.ofBits_def, Ideal.ofBits_zero_f32, zero_add]
  simp only [val_main_v17_apply, val_main_v16_apply, Ideal.mulf_def, Ideal.subf_def, idx_v18, v11_row]
  rfl

/-- Row `n`'s second term: the same the other way round. -/
theorem v23_row (n : Fin 16384) (b : Fin 1) :
    val_main_v23 (F := Ideal) x0 x1 x5 x6 x7 x8 (ix2 n b)
      = sqdist (dec (mat x7) (vec x8) (enc (mat x5) (vec x6) (mat x1 n))) (mat x0 n) := by
  rw [val_main_v23_apply, val_main_v22_apply, val_main_cst_0_apply, Ideal.ofBits_def, Ideal.ofBits_zero_f32, zero_add]
  simp only [val_main_v21_apply, val_main_v20_apply, Ideal.mulf_def, Ideal.subf_def, idx_v22, v15_row]
  rfl

/-- Row `n`'s third term: the squared distance between its two hidden vectors. -/
theorem v27_row (n : Fin 16384) (b : Fin 1) :
    val_main_v27 (F := Ideal) x0 x1 x3 x4 x5 x6 (ix2 n b)
      = sqdist (enc (mat x3) (vec x4) (mat x0 n)) (enc (mat x5) (vec x6) (mat x1 n)) := by
  rw [val_main_v27_apply, val_main_v26_apply, val_main_cst_1_apply, Ideal.ofBits_def, Ideal.ofBits_zero_f32, zero_add]
  simp only [val_main_v25_apply, val_main_v24_apply, Ideal.mulf_def, Ideal.subf_def, idx_v26, v3_row, v7_row]
  rfl

/-- Row `n`'s fourth term: the output unit's response to the sum of the hidden vectors, with its bias, halved, less the
    target. The constant one half is left as the word the program writes. -/
theorem v35_row (n : Fin 16384) :
    val_main_v35 (F := Ideal) x0 x1 x2 x3 x4 x5 x6 x11 x12 (ix2 n 0)
      = (resp (fun j => mat x11 j 0) (fun j => enc (mat x3) (vec x4) (mat x0 n) j + enc (mat x5) (vec x6) (mat x1 n) j)
          + vec x12 0) * half - mat x2 n 0 := by
  rw [val_main_v35_apply, val_main_v34_apply, val_main_v33_apply, val_main_cst_2_apply, val_main_v32_apply,
    val_main_v29_apply, val_main_v31_apply, val_main_v30_apply, Ideal.ofBits_def, Ideal.subf_def, Ideal.mulf_def,
    Ideal.addf_def]
  simp only [val_main_v28_apply, Ideal.addf_def, lidx_v29, ridx_v29, idx_v31, v3_row, v7_row]
  rfl

/-! ## The four sums over the rows -/

/-- The weights the ten parameter arrays hold. -/
local notation "𝒫" => paramsOfArrays x3 x4 x5 x6 x7 x8 x9 x10 x11 x12

theorem sum_v36 :
    ∑ j : S16384x1.Idx, val_main_v36 (F := Ideal) x0 x1 x3 x4 x9 x10 j
      = ∑ n ∈ range 16384, Cert.Loss.t1 𝒫 (rows x0 n) (rows x1 n) * Cert.Loss.t1 𝒫 (rows x0 n) (rows x1 n) := by
  refine sum_col _ _ fun n hn => ?_
  rw [val_main_v36_apply, Ideal.mulf_def, v19_row, rows_eq x0 n hn, rows_eq x1 n hn]
  rfl

theorem sum_v38 :
    ∑ j : S16384x1.Idx, val_main_v38 (F := Ideal) x0 x1 x5 x6 x7 x8 j
      = ∑ n ∈ range 16384, Cert.Loss.t2 𝒫 (rows x0 n) (rows x1 n) * Cert.Loss.t2 𝒫 (rows x0 n) (rows x1 n) := by
  refine sum_col _ _ fun n hn => ?_
  rw [val_main_v38_apply, Ideal.mulf_def, v23_row, rows_eq x0 n hn, rows_eq x1 n hn]
  rfl

theorem sum_v41 :
    ∑ j : S16384x1.Idx, val_main_v41 (F := Ideal) x0 x1 x3 x4 x5 x6 j
      = ∑ n ∈ range 16384, Cert.Loss.t3 𝒫 (rows x0 n) (rows x1 n) * Cert.Loss.t3 𝒫 (rows x0 n) (rows x1 n) := by
  refine sum_col _ _ fun n hn => ?_
  rw [val_main_v41_apply, Ideal.mulf_def, v27_row, rows_eq x0 n hn, rows_eq x1 n hn]
  rfl

theorem sum_v44 :
    ∑ j : S16384x1.Idx, val_main_v44 (F := Ideal) x0 x1 x2 x3 x4 x5 x6 x11 x12 j
      = ∑ n ∈ range 16384, Cert.Loss.t4 𝒫 (rows x0 n) (rows x1 n) (rows x2 n 0)
          * Cert.Loss.t4 𝒫 (rows x0 n) (rows x1 n) (rows x2 n 0) := by
  refine sum_col _ _ fun n hn => ?_
  rw [val_main_v44_apply, Ideal.mulf_def, v35_row, rows_eq x0 n hn, rows_eq x1 n hn, rows_eq x2 n hn]
  rfl

end Rows

/-- The reference program's result is the loss of the weights and rows its arrays hold: the four final sums, each from
    the constant zero, are the loss's four sums over the rows, added in the same order. -/
theorem val_eq_total (x0 x1 : (⟨S16384x1024, .f32⟩ : BufTy).Contents (Elt Ideal)) (x2 : (⟨S16384x1, .f32⟩ : BufTy).Contents (Elt Ideal)) (x3 : (⟨S1024x2048, .f32⟩ : BufTy).Contents (Elt Ideal)) (x4 : (⟨S2048, .f32⟩ : BufTy).Contents (Elt Ideal)) (x5 : (⟨S1024x2048, .f32⟩ : BufTy).Contents (Elt Ideal)) (x6 : (⟨S2048, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (x11 : (⟨S2048x1, .f32⟩ : BufTy).Contents (Elt Ideal)) (x12 : (⟨S1, .f32⟩ : BufTy).Contents (Elt Ideal)) :
    Cert.ReferenceIdeal.Read.val_main_v46 (F := Ideal) x0 x1 x2 x3 x4 x5 x6 x7 x8 x9 x10 x11 x12
      = fun _ => Cert.Loss.total (Cert.Loss.paramsOfArrays x3 x4 x5 x6 x7 x8 x9 x10 x11 x12) (Cert.Loss.rows x0) (Cert.Loss.rows x1) (fun n => Cert.Loss.rows x2 n 0) := by
  funext i
  rw [val_main_v46_apply, val_main_v43_apply, val_main_v40_apply, val_main_v37_apply, val_main_v39_apply,
    val_main_v42_apply, val_main_v45_apply, val_main_cst_3_apply, val_main_cst_4_apply, val_main_cst_5_apply,
    val_main_cst_6_apply, sum_v36 x0 x1 x3 x4 x5 x6 x7 x8 x9 x10 x11 x12, sum_v38 x0 x1 x3 x4 x5 x6 x7 x8 x9 x10 x11 x12,
    sum_v41 x0 x1 x3 x4 x5 x6 x7 x8 x9 x10 x11 x12, sum_v44 x0 x1 x2 x3 x4 x5 x6 x7 x8 x9 x10 x11 x12]
  simp only [Ideal.addf_def, Ideal.ofBits_def, Ideal.ofBits_zero_f32, zero_add]
  rfl

end Cert.ReferenceIdeal.RefLoss

end
-- ==== Proof.lean ====
/-
  The certificate's claims.

  The kernel computes a loss over a batch of 16384 rows: two encoders into a hidden space, two decoders back, three
  squared distances per row and the output unit's halved response less the target, and the sum over the rows of the
  squares of those four terms. It does so tile by tile: 64 tiles of 256 rows, each adding its own sum of squares into a
  running total kept per half of the batch, and the host adds the two halves. The reference computes the same four terms
  for all rows at once and sums their squares.

  At the ideal values both results are `Cert.Loss.total` of the arguments. On the kernel's side: what one grid point
  adds (Proof/Tile.lean), what each control case of the body leaves (Proof/Pieces.lean), what the windows hold
  (Proof/Blocks.lean), the running total by induction on the point (Proof/Accum.lean), the write-back, the host's final
  sum and the run (Proof/Final.lean). On the reference's side: its operations read one index at a time
  (Proof/RefLoss.lean). The two meet through the regrouping of one finite sum and the distribution of the real factor
  one half over a sum of extended reals (Proof/Loss.lean); neither needs the inputs to be finite, so the precondition is
  never opened. Every program's frame is its generated run; the kernel's idealization rewrote nothing, so the
  `preserves` conjunct is `True`.
-/
import proofs.«134806_j13795434955464_1_alg».proof.Defs
import proofs.«134806_j13795434955464_1_alg».proof.Proof.Gen.Kernel
import proofs.«134806_j13795434955464_1_alg».proof.Proof.Gen.Kernel.Skeleton
import proofs.«134806_j13795434955464_1_alg».proof.Proof.Gen.Kernel.Launch
import proofs.«134806_j13795434955464_1_alg».proof.Proof.Gen.Kernel.Points
import proofs.«134806_j13795434955464_1_alg».proof.Proof.Gen.Kernel.Frame
import proofs.«134806_j13795434955464_1_alg».proof.Proof.Gen.KernelIdeal
import proofs.«134806_j13795434955464_1_alg».proof.Proof.Gen.KernelIdeal.Skeleton
import proofs.«134806_j13795434955464_1_alg».proof.Proof.Gen.KernelIdeal.Launch
import proofs.«134806_j13795434955464_1_alg».proof.Proof.Gen.KernelIdeal.Points
import proofs.«134806_j13795434955464_1_alg».proof.Proof.Gen.KernelIdeal.Frame
import proofs.«134806_j13795434955464_1_alg».proof.Proof.Gen.ReferenceIdeal
import proofs.«134806_j13795434955464_1_alg».proof.Proof.Gen.ReferenceIdeal.Run
import proofs.«134806_j13795434955464_1_alg».proof.Proof.Gen.ReferenceIdeal.Read
import proofs.«134806_j13795434955464_1_alg».proof.Proof.Gen.Pre_finite_inputs
import proofs.«134806_j13795434955464_1_alg».proof.Proof.Final
import proofs.«134806_j13795434955464_1_alg».proof.Proof.RefLoss
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the loss of those arguments. -/
theorem algebraic : Cert.algebraic_KernelIdeal_ReferenceIdeal := by
  intro m ρ m' ρ' _ hagree
  refine ⟨fun c => Cert.KernelIdeal.Final.loss m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v46_eq, Cert.ReferenceIdeal.RefLoss.val_eq_total, h0, h1, h2, h3, h4, h5, h6, h7, h8, h9, h10, h11, h12]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
